-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x2 : Shape := ⟨2, ![4000000, 2]⟩
abbrev S4000000x1 : Shape := ⟨2, ![4000000, 1]⟩
abbrev S1024x32 : Shape := ⟨2, ![1024, 32]⟩
abbrev S4000000 : Shape := ⟨1, ![4000000]⟩
abbrev S36x32 : Shape := ⟨2, ![36, 32]⟩
abbrev S32 : Shape := ⟨1, ![32]⟩
abbrev S32x32 : Shape := ⟨2, ![32, 32]⟩
abbrev S_ : Shape := ⟨0, ![]⟩

class Facts : Prop where
  bcast_S_S4000000x2 : S_.BroadcastsInDim S4000000x2 (![] : Fin 0 → Fin S4000000x2.rank)
  reducesTo_S4000000x2_S_d0_1 : S4000000x2.ReducesTo [0, 1] S_
  h_S_ : 0 < S_.numel
  bcast_S_S4000000x1 : S_.BroadcastsInDim S4000000x1 (![] : Fin 0 → Fin S4000000x1.rank)
  reducesTo_S4000000x1_S_d0_1 : S4000000x1.ReducesTo [0, 1] S_
  bcast_S_S1024x32 : S_.BroadcastsInDim S1024x32 (![] : Fin 0 → Fin S1024x32.rank)
  reducesTo_S1024x32_S_d0_1 : S1024x32.ReducesTo [0, 1] S_
  bcast_S_S36x32 : S_.BroadcastsInDim S36x32 (![] : Fin 0 → Fin S36x32.rank)
  reducesTo_S36x32_S_d0_1 : S36x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S4000000 : S_.BroadcastsInDim S4000000 (![] : Fin 0 → Fin S4000000.rank)
  reducesTo_S4000000_S_d0 : S4000000.ReducesTo [0] S_

variable [Facts]

def fn_part2 {F : FTy → Type} [FloatOps F] (main_arg4 : IVec S4000000 32) (main_arg8 : FVec F S32 .f32) (main_v33 : IVec S_ 1) : IVec S_ 1 :=
  let main_v34 : FVec F S32 .f32 := Host.absf main_arg8
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_c_14 : IVec S_ 32 := constantI S_ 32 0#32
  let main_v39 : IVec S4000000 32 := broadcastInDim S4000000 ![] bcast_S_S4000000 main_c_14
  let main_v40 : IVec S4000000 1 := cmpi .sge main_arg4 main_v39
  let main_c_15 : IVec S_ 32 := constantI S_ 32 1024#32
  let main_v41 : IVec S4000000 32 := broadcastInDim S4000000 ![] bcast_S_S4000000 main_c_15
  let main_v42 : IVec S4000000 1 := cmpi .slt main_arg4 main_v41
  let main_v43 : IVec S4000000 1 := andi main_v40 main_v42
  let main_c_16 : IVec S_ 1 := constantI S_ 1 1#1
  let main_v44 : IVec S_ 1 := (fun x v => Host.reduce IntOp.andi x v reducesTo_S4000000_S_d0 h_S_) main_v43 main_c_16
  let main_v45 : IVec S_ 1 := andi main_v38 main_v44
  main_v45

def fn_part1 {F : FTy → Type} [FloatOps F] (main_arg4 : IVec S4000000 32) (main_arg5 : FVec F S36x32 .f32) (main_arg6 : FVec F S32 .f32) (main_arg7 : FVec F S32x32 .f32) (main_arg8 : FVec F S32 .f32) (main_v13 : IVec S_ 1) (main_v16 : IVec S1024x32 1) : IVec S_ 1 :=
  let main_c_5 : IVec S_ 1 := constantI S_ 1 1#1
  let main_v17 : IVec S_ 1 := (fun x v => Host.reduce IntOp.andi x v reducesTo_S1024x32_S_d0_1 h_S_) main_v16 main_c_5
  let main_v18 : IVec S_ 1 := andi main_v13 main_v17
  let main_v19 : FVec F S36x32 .f32 := Host.absf main_arg5
  let main_cst_6 : FVec F S_ .f32 := constant S_ .f32 0x7F800000#32
  let main_v20 : FVec F S36x32 .f32 := broadcastInDim S36x32 ![] bcast_S_S36x32 main_cst_6
  let main_v21 : IVec S36x32 1 := cmpf .olt main_v19 main_v20
  let main_c_7 : IVec S_ 1 := constantI S_ 1 1#1
  let main_v22 : IVec S_ 1 := (fun x v => Host.reduce IntOp.andi x v reducesTo_S36x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x32 .f32 := Host.absf main_arg7
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg4 main_arg8 main_v33

def fn {F : FTy → Type} [FloatOps F] (main_arg0 : FVec F S4000000x2 .f32) (main_arg1 : FVec F S4000000x2 .f32) (main_arg2 : FVec F S4000000x1 .f32) (main_arg3 : FVec F S1024x32 .f32) (main_arg4 : IVec S4000000 32) (main_arg5 : FVec F S36x32 .f32) (main_arg6 : FVec F S32 .f32) (main_arg7 : FVec F S32x32 .f32) (main_arg8 : FVec F S32 .f32) : IVec S_ 1 :=
  let main_v0 : FVec F S4000000x2 .f32 := Host.absf main_arg0
  let main_cst : FVec F S_ .f32 := constant S_ .f32 0x7F800000#32
  let main_v1 : FVec F S4000000x2 .f32 := broadcastInDim S4000000x2 ![] bcast_S_S4000000x2 main_cst
  let main_v2 : IVec S4000000x2 1 := cmpf .olt main_v0 main_v1
  let main_c : IVec S_ 1 := constantI S_ 1 1#1
  let main_v3 : IVec S_ 1 := (fun x v => Host.reduce IntOp.andi x v reducesTo_S4000000x2_S_d0_1 h_S_) main_v2 main_c
  let main_v4 : FVec F S4000000x2 .f32 := Host.absf main_arg1
  let main_cst_0 : FVec F S_ .f32 := constant S_ .f32 0x7F800000#32
  let main_v5 : FVec F S4000000x2 .f32 := broadcastInDim S4000000x2 ![] bcast_S_S4000000x2 main_cst_0
  let main_v6 : IVec S4000000x2 1 := cmpf .olt main_v4 main_v5
  let main_c_1 : IVec S_ 1 := constantI S_ 1 1#1
  let main_v7 : IVec S_ 1 := (fun x v => Host.reduce IntOp.andi x v reducesTo_S4000000x2_S_d0_1 h_S_) main_v6 main_c_1
  let main_v8 : IVec S_ 1 := andi main_v3 main_v7
  let main_v9 : FVec F S4000000x1 .f32 := Host.absf main_arg2
  let main_cst_2 : FVec F S_ .f32 := constant S_ .f32 0x7F800000#32
  let main_v10 : FVec F S4000000x1 .f32 := broadcastInDim S4000000x1 ![] bcast_S_S4000000x1 main_cst_2
  let main_v11 : IVec S4000000x1 1 := cmpf .olt main_v9 main_v10
  let main_c_3 : IVec S_ 1 := constantI S_ 1 1#1
  let main_v12 : IVec S_ 1 := (fun x v => Host.reduce IntOp.andi x v reducesTo_S4000000x1_S_d0_1 h_S_) main_v11 main_c_3
  let main_v13 : IVec S_ 1 := andi main_v8 main_v12
  let main_v14 : FVec F S1024x32 .f32 := Host.absf main_arg3
  let main_cst_4 : FVec F S_ .f32 := constant S_ .f32 0x7F800000#32
  let main_v15 : FVec F S1024x32 .f32 := broadcastInDim S1024x32 ![] bcast_S_S1024x32 main_cst_4
  let main_v16 : IVec S1024x32 1 := cmpf .olt main_v14 main_v15
  fn_part1 (F := F) main_arg4 main_arg5 main_arg6 main_arg7 main_arg8 main_v13 main_v16
-- ==== Kernel.lean ====
abbrev S4000000x2 : Shape := ⟨2, ![4000000, 2]⟩
abbrev S4000000x1 : Shape := ⟨2, ![4000000, 1]⟩
abbrev S1024x32 : Shape := ⟨2, ![1024, 32]⟩
abbrev S4000000 : Shape := ⟨1, ![4000000]⟩
abbrev S36x32 : Shape := ⟨2, ![36, 32]⟩
abbrev S32 : Shape := ⟨1, ![32]⟩
abbrev S32x32 : Shape := ⟨2, ![32, 32]⟩
abbrev S_ : Shape := ⟨0, ![]⟩
abbrev S4014080x2 : Shape := ⟨2, ![4014080, 2]⟩
abbrev S4014080 : Shape := ⟨1, ![4014080]⟩
abbrev S2x4014080 : Shape := ⟨2, ![2, 4014080]⟩
abbrev S32x1024 : Shape := ⟨2, ![32, 1024]⟩
abbrev S32x36 : Shape := ⟨2, ![32, 36]⟩
abbrev S32x1 : Shape := ⟨2, ![32, 1]⟩
abbrev S32x4014080 : Shape := ⟨2, ![32, 4014080]⟩
abbrev S2x16384 : Shape := ⟨2, ![2, 16384]⟩
abbrev S16384 : Shape := ⟨1, ![16384]⟩
abbrev S32x16384 : Shape := ⟨2, ![32, 16384]⟩
abbrev S1x16384 : Shape := ⟨2, ![1, 16384]⟩
abbrev S128x16384 : Shape := ⟨2, ![128, 16384]⟩
abbrev S32x128 : Shape := ⟨2, ![32, 128]⟩
abbrev S36x16384 : Shape := ⟨2, ![36, 16384]⟩
abbrev S4014080x32 : Shape := ⟨2, ![4014080, 32]⟩
abbrev S4000000x32 : Shape := ⟨2, ![4000000, 32]⟩

abbrev nBuf : Space → Nat
  | .hbm => 31
  | .vmem => 13
  | .smem => 0
  | _ => 0

abbrev bufTy : (tb : Table) → Fin (tcTables nBuf tb) → BufTy
  | .hbm, ⟨0, _⟩ => ⟨S4000000x2, .f32⟩
  | .hbm, ⟨1, _⟩ => ⟨S4000000x2, .f32⟩
  | .hbm, ⟨2, _⟩ => ⟨S4000000x1, .f32⟩
  | .hbm, ⟨3, _⟩ => ⟨S1024x32, .f32⟩
  | .hbm, ⟨4, _⟩ => ⟨S4000000, .i32⟩
  | .hbm, ⟨5, _⟩ => ⟨S36x32, .f32⟩
  | .hbm, ⟨6, _⟩ => ⟨S32, .f32⟩
  | .hbm, ⟨7, _⟩ => ⟨S32x32, .f32⟩
  | .hbm, ⟨8, _⟩ => ⟨S32, .f32⟩
  | .hbm, ⟨9, _⟩ => ⟨S_, .i32⟩
  | .hbm, ⟨10, _⟩ => ⟨S_, .f32⟩
  | .hbm, ⟨11, _⟩ => ⟨S4014080x2, .f32⟩
  | .hbm, ⟨12, _⟩ => ⟨S_, .i32⟩
  | .hbm, ⟨13, _⟩ => ⟨S_, .f32⟩
  | .hbm, ⟨14, _⟩ => ⟨S4014080x2, .f32⟩
  | .hbm, ⟨15, _⟩ => ⟨S_, .i32⟩
  | .hbm, ⟨16, _⟩ => ⟨S_, .i32⟩
  | .hbm, ⟨17, _⟩ => ⟨S4014080, .i32⟩
  | .hbm, ⟨18, _⟩ => ⟨S2x4014080, .f32⟩
  | .hbm, ⟨19, _⟩ => ⟨S2x4014080, .f32⟩
  | .hbm, ⟨20, _⟩ => ⟨S32x1024, .f32⟩
  | .hbm, ⟨21, _⟩ => ⟨S32x1024, .bf16⟩
  | .hbm, ⟨22, _⟩ => ⟨S32x36, .f32⟩
  | .hbm, ⟨23, _⟩ => ⟨S32x36, .bf16⟩
  | .hbm, ⟨24, _⟩ => ⟨S32x32, .f32⟩
  | .hbm, ⟨25, _⟩ => ⟨S32x32, .bf16⟩
  | .hbm, ⟨26, _⟩ => ⟨S32x1, .f32⟩
  | .hbm, ⟨27, _⟩ => ⟨S32x1, .f32⟩
  | .hbm, ⟨28, _⟩ => ⟨S32x4014080, .f32⟩
  | .hbm, ⟨29, _⟩ => ⟨S4014080x32, .f32⟩
  | .hbm, ⟨30, _⟩ => ⟨S4000000x32, .f32⟩
  | .local _ .vmem, ⟨0, _⟩ => ⟨S2x16384, .f32⟩
  | .local _ .vmem, ⟨1, _⟩ => ⟨S2x16384, .f32⟩
  | .local _ .vmem, ⟨2, _⟩ => ⟨S2x16384, .f32⟩
  | .local _ .vmem, ⟨3, _⟩ => ⟨S2x16384, .f32⟩
  | .local _ .vmem, ⟨4, _⟩ => ⟨S16384, .i32⟩
  | .local _ .vmem, ⟨5, _⟩ => ⟨S16384, .i32⟩
  | .local _ .vmem, ⟨6, _⟩ => ⟨S32x1024, .bf16⟩
  | .local _ .vmem, ⟨7, _⟩ => ⟨S32x36, .bf16⟩
  | .local _ .vmem, ⟨8, _⟩ => ⟨S32x1, .f32⟩
  | .local _ .vmem, ⟨9, _⟩ => ⟨S32x32, .bf16⟩
  | .local _ .vmem, ⟨10, _⟩ => ⟨S32x1, .f32⟩
  | .local _ .vmem, ⟨11, _⟩ => ⟨S32x16384, .f32⟩
  | .local _ .vmem, ⟨12, _⟩ => ⟨S32x16384, .f32⟩
  | _, _ => ⟨S4000000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_c_0 : Ref sig .tc := ⟨.hbm, 12, rfl⟩
abbrev main_call1_v0 : Ref sig .tc := ⟨.hbm, 13, rfl⟩
abbrev main_v1 : Ref sig .tc := ⟨.hbm, 14, rfl⟩
abbrev main_c_1 : Ref sig .tc := ⟨.hbm, 15, rfl⟩
abbrev main_call2_v0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![245], ![false]⟩

@[reducible] def k0_t1_loop : Scf.Loop 32 :=
  let c0_i32 : BitVec 32 := 0#32
  let c8_i32 : BitVec 32 := 8#32
  let v4 : BitVec 32 := Scalar.addi c0_i32 c8_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32 : BitVec 32 := 128#32
  let v30 : BitVec 32 := Scalar.muli arg10 c128_i32
  v30
def k0_off1 (k0_t1 : Fin k0_t1_loop.trips) : Fin 2 → Nat :=
  let c0_18 : Index := 0#32
  let c0_i32 : BitVec 32 := 0#32
  let c1_i32 : BitVec 32 := 1#32
  let arg10 : BitVec 32 := Scf.iv c0_i32 c1_i32 k0_t1
  let c128_i32 : BitVec 32 := 128#32
  let v30 : BitVec 32 := Scalar.muli arg10 c128_i32
  let v31 : BitVec 32 := v30
  let v40 : Index := Scalar.indexCast v31
  ![0, v40.toNat]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16384 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x36 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x32 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S32x16384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  pads_S4000000x2_S4014080x2_0140800_000 : S4000000x2.Pads (![0, 0] : Fin 2 → Nat) ![14080, 0] ![0, 0] S4014080x2
  h_S_ : 0 < S_.numel
  pads_S4000000_S4014080_0140800 : S4000000.Pads (![0] : Fin 1 → Nat) ![14080] ![0] S4014080
  transposes_S4014080x2_S2x4014080_1_0 : S4014080x2.Transposes [1, 0] S2x4014080
  transposes_S1024x32_S32x1024_1_0 : S1024x32.Transposes [1, 0] S32x1024
  bitsLt_bf16_f32 : FTy.bits .bf16 < FTy.bits .f32
  transposes_S36x32_S32x36_1_0 : S36x32.Transposes [1, 0] S32x36
  transposes_S32x32_S32x32_1_0 : S32x32.Transposes [1, 0] S32x32
  shapeCasts_S32_S32x1 : S32.ShapeCasts S32x1
  inb_S16384_S16384_0 : ∀ a, (![0] : Fin 1 → Nat) a + S16384.size a ≤ S16384.size a
  h_S16384 : 0 < S16384.numel
  shapeCasts_S16384_S16384 : S16384.ShapeCasts S16384
  shapeCasts_S16384_S1x16384 : S16384.ShapeCasts S1x16384
  iota_S128x16384_d0_w32 : S128x16384.Iotas .tc 32 [0]
  broadcasts_S1x16384_S128x16384 : S1x16384.Broadcasts S128x16384
  natLt_1_32 : 1 < 32
  h_S32x128 : 0 < S32x128.numel
  shapeCasts_S32x128_S32x128 : S32x128.ShapeCasts S32x128
  inb_S2x16384_S2x16384_0_0 : ∀ a, (![0, 0] : Fin 2 → Nat) a + S2x16384.size a ≤ S2x16384.size a
  h_S2x16384 : 0 < S2x16384.numel
  shapeCasts_S2x16384_S2x16384 : S2x16384.ShapeCasts S2x16384
  concatenates_S2x16384_S2x16384_S32x16384_S36x16384_d0 : Shape.Concatenates [S2x16384, S2x16384, S32x16384] S36x16384 0
  inb_S32x36_S32x36_0_0 : ∀ a, (![0, 0] : Fin 2 → Nat) a + S32x36.size a ≤ S32x36.size a
  h_S32x36 : 0 < S32x36.numel
  shapeCasts_S32x36_S32x36 : S32x36.ShapeCasts S32x36
  inb_S32x1_S32x1_0_0 : ∀ a, (![0, 0] : Fin 2 → Nat) a + S32x1.size a ≤ S32x1.size a
  h_S32x1 : 0 < S32x1.numel
  shapeCasts_S32x1_S32x1 : S32x1.ShapeCasts S32x1
  broadcasts_S32x1_S32x16384 : S32x1.Broadcasts S32x16384
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S32x16384_S32x16384_0_0 : ∀ a, (![0, 0] : Fin 2 → Nat) a + S32x16384.size a ≤ S32x16384.size a
  h_S32x16384 : 0 < S32x16384.numel
  transposes_S32x4014080_S4014080x32_1_0 : S32x4014080.Transposes [1, 0] S4014080x32
  slices_S4014080x32_S4000000x32_0_0 : S4014080x32.Slices ![0, 0] S4000000x32
  dot_S32x128_S128x16384_S32x16384_1_0_0_1_n_n_wf : DotDims.WF S32x128 S128x16384 S32x16384 [1] [0] [0] [1] [] []
  dot_S32x36_S36x16384_S32x16384_1_0_0_1_n_n_wf : DotDims.WF S32x36 S36x16384 S32x16384 [1] [0] [0] [1] [] []
  dot_S32x32_S32x16384_S32x16384_1_0_0_1_n_n_wf : DotDims.WF S32x32 S32x16384 S32x16384 [1] [0] [0] [1] [] []
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S32x128.size a ≤ S32x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x16384.size a ≤ S2x4014080.size a
  hwx0_0 : ∀ i : grid0.Coords, EltTy.bits .f32 = 32 ∨ (Rect.block (s := S2x4014080) S2x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x16384.size a ≤ S2x4014080.size a
  hwx0_1 : ∀ i : grid0.Coords, EltTy.bits .f32 = 32 ∨ (Rect.block (s := S2x4014080) S2x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16384.size a ≤ S4014080.size a
  hwx0_2 : ∀ i : grid0.Coords, EltTy.bits .i32 = 32 ∨ (Rect.block (s := S4014080) S16384.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x1024.size a ≤ S32x1024.size a
  hwx0_3 : ∀ i : grid0.Coords, EltTy.bits .bf16 = 32 ∨ (Rect.block (s := S32x1024) S32x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x36.size a ≤ S32x36.size a
  hwx0_4 : ∀ i : grid0.Coords, EltTy.bits .bf16 = 32 ∨ (Rect.block (s := S32x36) S32x36.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x1.size a ≤ S32x1.size a
  hwx0_5 : ∀ i : grid0.Coords, EltTy.bits .f32 = 32 ∨ (Rect.block (s := S32x1) S32x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x32.size a ≤ S32x32.size a
  hwx0_6 : ∀ i : grid0.Coords, EltTy.bits .bf16 = 32 ∨ (Rect.block (s := S32x32) S32x32.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x1.size a ≤ S32x1.size a
  hwx0_7 : ∀ i : grid0.Coords, EltTy.bits .f32 = 32 ∨ (Rect.block (s := S32x1) S32x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S32x16384.size a ≤ S32x4014080.size a
  hwx0_8 : ∀ i : grid0.Coords, EltTy.bits .f32 = 32 ∨ (Rect.block (s := S32x4014080) S32x16384.size (cc0_transform_8 i) (hinb0_8 i)).WholeWords (EltTy.packing .f32)

variable [Facts₀]

def dot_S32x128_S128x16384_S32x16384_1_0_0_1_n_n : DotDims S32x128 S128x16384 S32x16384 where
  lhsContracting := [1]
  rhsContracting := [0]
  lhsNonContracting := [0]
  rhsNonContracting := [1]
  lhsBatch := []
  rhsBatch := []
  wf := dot_S32x128_S128x16384_S32x16384_1_0_0_1_n_n_wf
def dot_S32x36_S36x16384_S32x16384_1_0_0_1_n_n : DotDims S32x36 S36x16384 S32x16384 where
  lhsContracting := [1]
  rhsContracting := [0]
  lhsNonContracting := [0]
  rhsNonContracting := [1]
  lhsBatch := []
  rhsBatch := []
  wf := dot_S32x36_S36x16384_S32x16384_1_0_0_1_n_n_wf
def dot_S32x32_S32x16384_S32x16384_1_0_0_1_n_n : DotDims S32x32 S32x16384 S32x16384 where
  lhsContracting := [1]
  rhsContracting := [0]
  lhsNonContracting := [0]
  rhsNonContracting := [1]
  lhsBatch := []
  rhsBatch := []
  wf := dot_S32x32_S32x16384_S32x16384_1_0_0_1_n_n_wf

abbrev win0_0 : Pipeline.Window sig grid0 :=
  Pipeline.Window.ofSpec (Memref.whole main_v3) S2x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S2x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S16384.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S32x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S32x36.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S32x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S32x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12) S32x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v13) S32x16384.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4000000x2 : Shape := ⟨2, ![4000000, 2]⟩
abbrev S4000000x1 : Shape := ⟨2, ![4000000, 1]⟩
abbrev S1024x32 : Shape := ⟨2, ![1024, 32]⟩
abbrev S4000000 : Shape := ⟨1, ![4000000]⟩
abbrev S36x32 : Shape := ⟨2, ![36, 32]⟩
abbrev S32 : Shape := ⟨1, ![32]⟩
abbrev S32x32 : Shape := ⟨2, ![32, 32]⟩
abbrev S_ : Shape := ⟨0, ![]⟩
abbrev S4000000x32 : Shape := ⟨2, ![4000000, 32]⟩
abbrev S4000000x36 : Shape := ⟨2, ![4000000, 36]⟩
abbrev S1x32 : Shape := ⟨2, ![1, 32]⟩

abbrev nBuf : Space → Nat
  | .hbm => 30
  | .vmem => 0
  | .smem => 0
  | _ => 0

abbrev bufTy : (tb : Table) → Fin (tcTables nBuf tb) → BufTy
  | .hbm, ⟨0, _⟩ => ⟨S4000000x2, .f32⟩
  | .hbm, ⟨1, _⟩ => ⟨S4000000x2, .f32⟩
  | .hbm, ⟨2, _⟩ => ⟨S4000000x1, .f32⟩
  | .hbm, ⟨3, _⟩ => ⟨S1024x32, .f32⟩
  | .hbm, ⟨4, _⟩ => ⟨S4000000, .i32⟩
  | .hbm, ⟨5, _⟩ => ⟨S36x32, .f32⟩
  | .hbm, ⟨6, _⟩ => ⟨S32, .f32⟩
  | .hbm, ⟨7, _⟩ => ⟨S32x32, .f32⟩
  | .hbm, ⟨8, _⟩ => ⟨S32, .f32⟩
  | .hbm, ⟨9, _⟩ => ⟨S_, .i32⟩
  | .hbm, ⟨10, _⟩ => ⟨S4000000, .i32⟩
  | .hbm, ⟨11, _⟩ => ⟨S4000000, .i1⟩
  | .hbm, ⟨12, _⟩ => ⟨S_, .i32⟩
  | .hbm, ⟨13, _⟩ => ⟨S4000000, .i32⟩
  | .hbm, ⟨14, _⟩ => ⟨S4000000, .i32⟩
  | .hbm, ⟨15, _⟩ => ⟨S4000000, .i32⟩
  | .hbm, ⟨16, _⟩ => ⟨S4000000x1, .i32⟩
  | .hbm, ⟨17, _⟩ => ⟨S4000000x32, .f32⟩
  | .hbm, ⟨18, _⟩ => ⟨S4000000x36, .f32⟩
  | .hbm, ⟨19, _⟩ => ⟨S4000000x32, .f32⟩
  | .hbm, ⟨20, _⟩ => ⟨S1x32, .f32⟩
  | .hbm, ⟨21, _⟩ => ⟨S4000000x32, .f32⟩
  | .hbm, ⟨22, _⟩ => ⟨S4000000x32, .f32⟩
  | .hbm, ⟨23, _⟩ => ⟨S_, .f32⟩
  | .hbm, ⟨24, _⟩ => ⟨S4000000x32, .f32⟩
  | .hbm, ⟨25, _⟩ => ⟨S4000000x32, .f32⟩
  | .hbm, ⟨26, _⟩ => ⟨S4000000x32, .f32⟩
  | .hbm, ⟨27, _⟩ => ⟨S1x32, .f32⟩
  | .hbm, ⟨28, _⟩ => ⟨S4000000x32, .f32⟩
  | .hbm, ⟨29, _⟩ => ⟨S4000000x32, .f32⟩
  | _, _ => ⟨S4000000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_call0_cst : Ref sig .tc := ⟨.hbm, 23, rfl⟩
abbrev main_call0_v0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩

abbrev nD : Nat := 1
abbrev τ : Topo := Topo.v7x

variable {F : FTy → Type} [FloatOps F]

class Facts₀ : Prop where
  bcast_S_S4000000 : S_.BroadcastsInDim S4000000 (![] : Fin 0 → Fin S4000000.rank)
  bcast_S4000000_S4000000x1_0 : S4000000.BroadcastsInDim S4000000x1 (![0] : Fin 1 → Fin S4000000x1.rank)
  concatenates_S4000000x2_S4000000x2_S4000000x32_S4000000x36_d1 : Shape.Concatenates [S4000000x2, S4000000x2, S4000000x32] S4000000x36 1
  bcast_S32_S1x32_1 : S32.BroadcastsInDim S1x32 (![1] : Fin 1 → Fin S1x32.rank)
  bcast_S1x32_S4000000x32_0_1 : S1x32.BroadcastsInDim S4000000x32 (![0, 1] : Fin 2 → Fin S4000000x32.rank)
  bcast_S_S4000000x32 : S_.BroadcastsInDim S4000000x32 (![] : Fin 0 → Fin S4000000x32.rank)
  gather_S1024x32_S4000000x1_S4000000x32_1_0_n_n_0_1_132_wf : GatherDims.WF S1024x32 S4000000x1 S4000000x32 [1] [0] [] [0] [] 1 ![1, 32]
  dot_S4000000x36_S36x32_S4000000x32_1_0_0_1_n_n_wf : DotDims.WF S4000000x36 S36x32 S4000000x32 [1] [0] [0] [1] [] []
  dot_S4000000x32_S32x32_S4000000x32_1_0_0_1_n_n_wf : DotDims.WF S4000000x32 S32x32 S4000000x32 [1] [0] [0] [1] [] []

variable [Facts₀]

def gather_S1024x32_S4000000x1_S4000000x32_1_0_n_n_0_1_132 : GatherDims S1024x32 S4000000x1 S4000000x32 where
  offsetDims := [1]
  collapsedSliceDims := [0]
  operandBatchingDims := []
  startIndicesBatchingDims := []
  startIndexMap := [0]
  indexVectorDim := 1
  sliceSizes := ![1, 32]
  wf := gather_S1024x32_S4000000x1_S4000000x32_1_0_n_n_0_1_132_wf
def dot_S4000000x36_S36x32_S4000000x32_1_0_0_1_n_n : DotDims S4000000x36 S36x32 S4000000x32 where
  lhsContracting := [1]
  rhsContracting := [0]
  lhsNonContracting := [0]
  rhsNonContracting := [1]
  lhsBatch := []
  rhsBatch := []
  wf := dot_S4000000x36_S36x32_S4000000x32_1_0_0_1_n_n_wf
def dot_S4000000x32_S32x32_S4000000x32_1_0_0_1_n_n : DotDims S4000000x32 S32x32 S4000000x32 where
  lhsContracting := [1]
  rhsContracting := [0]
  lhsNonContracting := [0]
  rhsNonContracting := [1]
  lhsBatch := []
  rhsBatch := []
  wf := dot_S4000000x32_S32x32_S4000000x32_1_0_0_1_n_n_wf

class Facts : Prop extends Facts₀ where

variable [Facts]
-- ==== Proof.PreRange.lean ====
/-
  The range of the graph ids, read out of the precondition.

  The precondition is a conjunction: every float argument is finite, and every graph id b satisfies 0 ≤ b and
  b < 1024 as signed 32-bit numbers. The conjunction is a chain of one-bit "and"s ending in an "and"-reduction over the
  id array; a reduction by "and" that comes out 1 met only 1s, so the two signed comparisons hold at every index, and a
  word that is non-negative and below 1024 as a signed number has unsigned value below 1024.
-/
import proofs.«418547_j34376918237201_1_alg».proof.Pre_finite_inputs
import Idealize.ShloMosaic.Lib.ReduceAll
import Idealize.ShloMosaic.Lib.StableHlo.Predicate
import Idealize.ShloMosaic.Lib.ValueIdx

noncomputable section

namespace Cert.EdgeMlp.PreRange

open Idealize.ShloMosaic Cert.Pre_finite_inputs

variable [Cert.Pre_finite_inputs.Facts]

/-- A 32-bit word that is signed-nonnegative and signed-below 1024 has unsigned value below 1024. -/
theorem toNat_lt_of_signed_range (w : BitVec 32)
    (h : IntOp.andi (IntOp.cmpi .sge w 0#32) (IntOp.cmpi .slt w 1024#32) = 1#1) : w.toNat < 1024 := by
  obtain ⟨hge, hlt⟩ := IntOp.andi_eq_one.1 h
  rw [IntOp.cmpi_sge] at hge
  rw [IntOp.cmpi_slt] at hlt
  have h0 : (0#32 : BitVec 32).toInt = 0 := by decide
  have h1 : (1024#32 : BitVec 32).toInt = 1024 := by decide
  rw [h0] at hge
  rw [h1] at hlt
  have hw := w.isLt
  rw [BitVec.toInt_eq_toNat_cond] at hge hlt
  split at hge <;> omega

/-- Where the precondition holds, every graph id read as a natural number is below 1024. -/
theorem batch_lt (a0 a1 : FVec Ideal S4000000x2 .f32) (a2 : FVec Ideal S4000000x1 .f32) (a3 : FVec Ideal S1024x32 .f32)
    (a4 : IVec S4000000 32) (a5 : FVec Ideal S36x32 .f32) (a6 : FVec Ideal S32 .f32) (a7 : FVec Ideal S32x32 .f32)
    (a8 : FVec Ideal S32 .f32)
    (h : Cert.Pre_finite_inputs.fn (F := Ideal) a0 a1 a2 a3 a4 a5 a6 a7 a8 = fun _ => 1#1) (i : S4000000.Idx) :
    (a4 i).toNat < 1024 := by
  have h0 := congrFun h ValueIdx.ix0
  unfold Cert.Pre_finite_inputs.fn Cert.Pre_finite_inputs.fn_part1 Cert.Pre_finite_inputs.fn_part2 at h0
  -- the outermost conjunction: all float conjuncts on the left, the id-range conjunct on the right
  have hr := (IntOp.andi_eq_one.1 h0).2
  -- the rank-0 result shape has a single index, so every element of the reduced array is 1
  haveI : Subsingleton S_.Idx := ⟨fun a b => funext fun d => d.elim0⟩
  have hall := Host.reduce_andi_all _ _ _ _ _ hr i
  exact toNat_lt_of_signed_range (a4 i) hall

end Cert.EdgeMlp.PreRange

end
-- ==== Proof.Spec.lean ====
/-
  The function both programs compute, written once over the argument arrays.

  An edge e has 36 features: the two coordinates of its source endpoint, the two of its destination
  endpoint, and the 32 entries of the row of the per-graph table u that its graph id batch[e] selects.
  A two-layer perceptron is applied to them: the hidden layer is max(feat · W1 + b1, 0), the output is
  hidden · W2 + b2. Everything is over the extended reals; sums are finite sums, products are written
  with the feature (or hidden value) on the left and the weight on the right.

  The graph id is read as the natural number its 32-bit word encodes, reduced modulo 1024 so that the
  function is total; on the domain 0 ≤ batch[e] < 1024 that is batch[e] itself.
-/
import Idealize.ShloMosaic.Lib.ValueIdx

noncomputable section

open scoped BigOperators

namespace Cert.EdgeMlp

open Idealize.ShloMosaic Idealize.ShloMosaic.ValueIdx

/-- Endpoint coordinates: one row of two numbers per edge. -/
abbrev SEdge2 : Shape := ⟨2, ![4000000, 2]⟩
/-- The per-graph table: 1024 rows of 32 numbers. -/
abbrev STable : Shape := ⟨2, ![1024, 32]⟩
/-- One graph id per edge. -/
abbrev SIds : Shape := ⟨1, ![4000000]⟩
/-- First layer's weights, 36 features by 32 hidden units. -/
abbrev SW1 : Shape := ⟨2, ![36, 32]⟩
/-- A bias vector of 32 numbers. -/
abbrev SBias : Shape := ⟨1, ![32]⟩
/-- Second layer's weights, 32 hidden units by 32 outputs. -/
abbrev SW2 : Shape := ⟨2, ![32, 32]⟩
/-- The result: 32 numbers per edge. -/
abbrev SOut : Shape := ⟨2, ![4000000, 32]⟩

/-- The table row an edge's graph id selects. -/
def graphRow (batch : SIds.Idx → BitVec 32) (e : Fin 4000000) : Fin 1024 :=
  ⟨(batch (ix1 e)).toNat % 1024, Nat.mod_lt _ (by decide)⟩

/-- Feature k of edge e: source coordinates, destination coordinates, then the selected table row. -/
def feat (src dest : SEdge2.Idx → EReal) (u : STable.Idx → EReal) (batch : SIds.Idx → BitVec 32)
    (e : Fin 4000000) (k : Fin 36) : EReal :=
  if h0 : k.val < 2 then src (ix2 e (⟨k.val, h0⟩ : Fin 2))
  else if h1 : k.val < 4 then dest (ix2 e (⟨k.val - 2, by omega⟩ : Fin 2))
  else u (ix2 (graphRow batch e) (⟨k.val - 4, by omega⟩ : Fin 32))

/-- Hidden unit k of edge e: the first layer followed by the positive part. -/
def hidden (src dest : SEdge2.Idx → EReal) (u : STable.Idx → EReal) (batch : SIds.Idx → BitVec 32)
    (W1 : SW1.Idx → EReal) (b1 : SBias.Idx → EReal) (e : Fin 4000000) (k : Fin 32) : EReal :=
  max ((∑ k' : Fin 36, feat src dest u batch e k' * W1 (ix2 k' k)) + b1 (ix1 k)) 0

/-- Output j of edge e: the second layer. -/
def out (src dest : SEdge2.Idx → EReal) (u : STable.Idx → EReal) (batch : SIds.Idx → BitVec 32)
    (W1 : SW1.Idx → EReal) (b1 : SBias.Idx → EReal) (W2 : SW2.Idx → EReal) (b2 : SBias.Idx → EReal)
    (e : Fin 4000000) (j : Fin 32) : EReal :=
  (∑ k : Fin 32, hidden src dest u batch W1 b1 e k * W2 (ix2 k j)) + b2 (ix1 j)

/-- The whole result array. -/
def outArr (src dest : SEdge2.Idx → EReal) (u : STable.Idx → EReal) (batch : SIds.Idx → BitVec 32)
    (W1 : SW1.Idx → EReal) (b1 : SBias.Idx → EReal) (W2 : SW2.Idx → EReal) (b2 : SBias.Idx → EReal) :
    SOut.Idx → EReal :=
  fun i => out src dest u batch W1 b1 W2 b2 ⟨(i 0).val, idx2_lt0 i⟩ ⟨(i 1).val, idx2_lt1 i⟩

/-- The result array at an index given by its coordinates. -/
theorem outArr_ix2 (src dest : SEdge2.Idx → EReal) (u : STable.Idx → EReal) (batch : SIds.Idx → BitVec 32)
    (W1 : SW1.Idx → EReal) (b1 : SBias.Idx → EReal) (W2 : SW2.Idx → EReal) (b2 : SBias.Idx → EReal)
    (e : Fin 4000000) (j : Fin 32) :
    outArr src dest u batch W1 b1 W2 b2 (ix2 e j) = out src dest u batch W1 b1 W2 b2 e j := rfl

/-- On the domain of graph ids the selected row is the id itself. -/
theorem graphRow_val (batch : SIds.Idx → BitVec 32) (e : Fin 4000000) (h : (batch (ix1 e)).toNat < 1024) :
    (graphRow batch e).val = (batch (ix1 e)).toNat := Nat.mod_eq_of_lt h

/-- A table read through a one-hot row: the sum over all 1024 rows of the entry times the indicator of
    "this is row r" is the entry of row r. Zero times anything is zero on the extended reals, so no finiteness
    is needed. -/
theorem sum_indicator (f : Fin 1024 → EReal) (r : Fin 1024) :
    (∑ g : Fin 1024, f g * (if g = r then (1 : EReal) else 0)) = f r := by
  rw [Finset.sum_eq_single r]
  · rw [if_pos rfl, mul_one]
  · intro g _ hg; rw [if_neg hg, mul_zero]
  · intro h; exact absurd (Finset.mem_univ r) h

end Cert.EdgeMlp

end
-- ==== Proof.RefValue.lean ====
/-
  The reference's result is the specification.

  The reference selects, for each edge, a row of the 1024-row table: it first maps a negative id b to b + 1024, then
  gathers with the start row clamped into 0 … 1023. For an id whose unsigned value is below 1024 the word is not
  negative, so nothing is added, and the clamp does nothing: the row is the id. The selected row is joined to the two
  coordinate pairs along the feature axis (features 0–1, 2–3, 4–35), and two matrix products with a bias each, the
  first followed by a maximum with zero, give the result; each product is read as the finite sum over the
  contracted axis.
-/
import proofs.«418547_j34376918237201_1_alg».proof.Proof.Gen.ReferenceIdeal.Read
import proofs.«418547_j34376918237201_1_alg».proof.Proof.Spec
import Idealize.ShloMosaic.Lib.StableHlo.Predicate

noncomputable section

open scoped BigOperators

namespace Cert.EdgeMlp.RefValue

open Idealize.ShloMosaic Idealize.ShloMosaic.ValueIdx Cert.ReferenceIdeal Cert.ReferenceIdeal.Read
open Cert.ReferenceIdeal.Gen Idealize.ShloMosaic.StableHlo.Predicate

/-- A row gather of a 1024 × 32 table at a column of 4,000,000 start indices, read at (e, d): the table's entry in
    column d of the row that start index e names, the start index read as a signed integer and clamped into
    0 … 1023. On the table's first axis (collapsed, and the one the start index addresses) the coordinate is the
    clamped start; on its second axis (the offset axis, start 0) it is the result's own second coordinate. -/
theorem gather_row_apply {α : Type} (x : S1024x32.Idx → α) (idx : IVec S4000000x1 32) (e : Fin 4000000) (d : Fin 32) :
    Host.gather gather_S1024x32_S4000000x1_S4000000x32_1_0_n_n_0_1_132 x idx (ix2 e d)
      = x (ix2 (⟨min (idx (ix2 e (0 : Fin 1))).toInt.toNat 1023, by omega⟩ : Fin 1024) d) := by
  unfold Host.gather
  congr 1
  funext a
  refine Fin.ext ?_
  match a with
  | ⟨0, _⟩ =>
    show GatherDims.start gather_S1024x32_S4000000x1_S4000000x32_1_0_n_n_0_1_132 (ix2 e d) idx 0
        + GatherDims.batchCoord gather_S1024x32_S4000000x1_S4000000x32_1_0_n_n_0_1_132 (ix2 e d) 0
        + GatherDims.offCoord gather_S1024x32_S4000000x1_S4000000x32_1_0_n_n_0_1_132 (ix2 e d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S1024x32_S4000000x1_S4000000x32_1_0_n_n_0_1_132.startIndexMap from List.mem_singleton.mpr rfl)]
    have hsi : gather_S1024x32_S4000000x1_S4000000x32_1_0_n_n_0_1_132.siIdx (ix2 e d)
        ⟨List.idxOf (0 : Fin 2) gather_S1024x32_S4000000x1_S4000000x32_1_0_n_n_0_1_132.startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show GatherDims.start gather_S1024x32_S4000000x1_S4000000x32_1_0_n_n_0_1_132 (ix2 e d) idx 1
        + GatherDims.batchCoord gather_S1024x32_S4000000x1_S4000000x32_1_0_n_n_0_1_132 (ix2 e d) 1
        + GatherDims.offCoord gather_S1024x32_S4000000x1_S4000000x32_1_0_n_n_0_1_132 (ix2 e d) 1 = d.val
    rw [GatherDims.batchCoord_eq_zero _ _ _ List.not_mem_nil]
    unfold GatherDims.start
    rw [dif_neg (show ¬ (1 : Fin 2) ∈ gather_S1024x32_S4000000x1_S4000000x32_1_0_n_n_0_1_132.startIndexMap by decide)]
    simp only [Nat.add_zero, Nat.zero_add]
    unfold GatherDims.offCoord
    rw [dif_pos (show (1 : Fin 2) ∈ gather_S1024x32_S4000000x1_S4000000x32_1_0_n_n_0_1_132.sKept by decide)]
    rfl

/-- Three arrays of widths 2, 2 and 32 joined along the second axis, read at (e, k): the first array at (e, k)
    when k < 2, the second at (e, k − 2) when 2 ≤ k < 4, the third at (e, k − 4) otherwise. Each case names the
    piece whose span 0…1, 2…3, 4…35 holds k and the widths of the pieces before it (0, 2, 4). -/
theorem concat3_apply {α : Type} (a b : S4000000x2.Idx → α) (y : S4000000x32.Idx → α) (e : Fin 4000000) (k : Fin 36) :
    concatenate S4000000x36 1 [⟨S4000000x2, a⟩, ⟨S4000000x2, b⟩, ⟨S4000000x32, y⟩]
        concatenates_S4000000x2_S4000000x2_S4000000x32_S4000000x36_d1 (ix2 e k)
      = if h0 : k.val < 2 then a (ix2 e (⟨k.val, h0⟩ : Fin 2))
        else if h1 : k.val < 4 then b (ix2 e (⟨k.val - 2, by omega⟩ : Fin 2))
        else y (ix2 e (⟨k.val - 4, by omega⟩ : Fin 32)) := by
  by_cases h0 : k.val < 2
  · rw [dif_pos h0]
    refine concatenate_apply_piece (1 : Fin S4000000x36.rank) _ _ (ix2 e k) 0 (by show (0 : ℕ) < 3; omega) S4000000x2 a rfl rfl 0 rfl
      (ix2 e (⟨k.val, h0⟩ : Fin 2)) (fun b hb => ?_) ?_
    · match b with
      | ⟨0, _⟩ => rfl
      | ⟨1, _⟩ => exact absurd rfl hb
    · show 0 + k.val = k.val
      omega
  · rw [dif_neg h0]
    by_cases h1 : k.val < 4
    · rw [dif_pos h1]
      refine concatenate_apply_piece (1 : Fin S4000000x36.rank) _ _ (ix2 e k) 1 (by show (1 : ℕ) < 3; omega) S4000000x2 b rfl rfl 2 rfl
        (ix2 e (⟨k.val - 2, by omega⟩ : Fin 2)) (fun c hc => ?_) ?_
      · match c with
        | ⟨0, _⟩ => rfl
        | ⟨1, _⟩ => exact absurd rfl hc
      · show 2 + (k.val - 2) = k.val
        omega
    · rw [dif_neg h1]
      refine concatenate_apply_piece (1 : Fin S4000000x36.rank) _ _ (ix2 e k) 2 (by show (2 : ℕ) < 3; omega) S4000000x32 y rfl rfl 4 rfl
        (ix2 e (⟨k.val - 4, by omega⟩ : Fin 32)) (fun c hc => ?_) ?_
      · match c with
        | ⟨0, _⟩ => rfl
        | ⟨1, _⟩ => exact absurd rfl hc
      · show 4 + (k.val - 4) = k.val
        omega

/-- A word below 1024 is not negative as a signed word, so the step that wraps negative ids around
    by adding 1024 leaves it as it is. -/
theorem wrap_small (w : BitVec 32) (h : w.toNat < 1024) :
    Scalar.select (IntOp.cmpi .slt w 0#32) (IntOp.addi w 1024#32) w = w := by
  have hz : IntOp.cmpi .slt w 0#32 = 0#1 := by
    refine eq_zero_of_ne_one fun h1 => ?_
    have hlt := (slt_iff_toNat (a := w) (b := 0#32) (by omega) (by decide)).mp h1
    exact Nat.not_lt_zero _ hlt
  rw [hz, select_zero]

/-- The start index of edge e: on the domain of graph ids it is the edge's id word itself. -/
theorem start_index_apply (x4 : (⟨S4000000, .i32⟩ : BufTy).Contents (Elt Ideal)) (hb : ∀ i, (x4 i).toNat < 1024)
    (e : Fin 4000000) : val_main_v5 (F := Ideal) x4 (ix2 e (0 : Fin 1)) = x4 (ix1 e) := by
  have hidx : idx_main_v5 (ix2 e (0 : Fin 1)) = ix1 e :=
    funext fun a => Fin.ext (by match a with | ⟨0, _⟩ => rfl)
  rw [val_main_v5_apply, hidx, val_main_v4_apply, val_main_v1_apply, val_main_v3_apply, val_main_v0_apply,
    val_main_c_apply, val_main_v2_apply, val_main_c_0_apply]
  exact wrap_small _ (hb _)

/-- The gathered table at (e, d): entry d of the table row that edge e's graph id selects. -/
theorem gathered_apply (x3 : (⟨S1024x32, .f32⟩ : BufTy).Contents (Elt Ideal))
    (x4 : (⟨S4000000, .i32⟩ : BufTy).Contents (Elt Ideal)) (hb : ∀ i, (x4 i).toNat < 1024)
    (e : Fin 4000000) (d : Fin 32) :
    val_main_v6 (F := Ideal) x3 x4 (ix2 e d) = x3 (ix2 (Cert.EdgeMlp.graphRow x4 e) d) := by
  unfold val_main_v6
  rw [gather_row_apply]
  have hlt := hb (ix1 e)
  refine congrArg (fun r : Fin 1024 => x3 (ix2 r d)) (Fin.ext ?_)
  show min (val_main_v5 (F := Ideal) x4 (ix2 e (0 : Fin 1))).toInt.toNat 1023 = (Cert.EdgeMlp.graphRow x4 e).val
  rw [start_index_apply x4 hb e, Cert.EdgeMlp.graphRow_val x4 e hlt, toInt_eq_toNat_of_lt (by omega),
    Int.toNat_natCast]
  exact Nat.min_eq_left (by omega)

/-- The joined feature array at (e, k) is feature k of edge e. -/
theorem features_apply (x0 x1 : (⟨S4000000x2, .f32⟩ : BufTy).Contents (Elt Ideal))
    (x3 : (⟨S1024x32, .f32⟩ : BufTy).Contents (Elt Ideal)) (x4 : (⟨S4000000, .i32⟩ : BufTy).Contents (Elt Ideal))
    (hb : ∀ i, (x4 i).toNat < 1024) (e : Fin 4000000) (k : Fin 36) :
    val_main_v7 (F := Ideal) x0 x1 x3 x4 (ix2 e k) = Cert.EdgeMlp.feat x0 x1 x3 x4 e k := by
  unfold val_main_v7 Cert.EdgeMlp.feat
  rw [concat3_apply]
  by_cases h0 : k.val < 2
  · rw [dif_pos h0, dif_pos h0]
  · rw [dif_neg h0, dif_neg h0]
    by_cases h1 : k.val < 4
    · rw [dif_pos h1, dif_pos h1]
    · rw [dif_neg h1, dif_neg h1]
      exact gathered_apply x3 x4 hb e _

/-- The hidden layer's array at (e, k) is hidden unit k of edge e: the sum over the 36 features of
    feature × first-layer weight, plus the first bias, then the maximum with 0 (the word of all zero bits
    encodes the real number 0). -/
theorem hidden_apply (x0 x1 : (⟨S4000000x2, .f32⟩ : BufTy).Contents (Elt Ideal))
    (x3 : (⟨S1024x32, .f32⟩ : BufTy).Contents (Elt Ideal)) (x4 : (⟨S4000000, .i32⟩ : BufTy).Contents (Elt Ideal))
    (x5 : (⟨S36x32, .f32⟩ : BufTy).Contents (Elt Ideal)) (x6 : (⟨S32, .f32⟩ : BufTy).Contents (Elt Ideal))
    (hb : ∀ i, (x4 i).toNat < 1024) (e : Fin 4000000) (k : Fin 32) :
    val_main_v12 (F := Ideal) x0 x1 x3 x4 x5 x6 (ix2 e k) = Cert.EdgeMlp.hidden x0 x1 x3 x4 x5 x6 e k := by
  rw [val_main_v12_apply, val_main_v11_apply, val_main_v8_apply, val_main_v10_apply, val_main_v9_apply,
    val_main_call0_v0_apply, val_main_call0_cst_apply, Ideal.maximumf_def, Ideal.addf_def, Ideal.ofBits_def,
    Ideal.ofBits_zero_f32]
  unfold Cert.EdgeMlp.hidden
  have hsum : (∑ k' : Fin 36, val_main_v7 (F := Ideal) x0 x1 x3 x4 (lidx_main_v8 (ix2 e k) k') * x5 (ridx_main_v8 (ix2 e k) k'))
      = ∑ k' : Fin 36, Cert.EdgeMlp.feat x0 x1 x3 x4 e k' * x5 (ix2 k' k) := by
    refine Finset.sum_congr rfl fun k' _ => ?_
    have hl : lidx_main_v8 (ix2 e k) k' = ix2 e k' :=
      funext fun a => Fin.ext (by match a with | ⟨0, _⟩ => rfl | ⟨1, _⟩ => rfl)
    have hr : ridx_main_v8 (ix2 e k) k' = ix2 k' k :=
      funext fun a => Fin.ext (by match a with | ⟨0, _⟩ => rfl | ⟨1, _⟩ => rfl)
    rw [hl, hr, features_apply x0 x1 x3 x4 hb e k']
  have hbias : idx_main_v9 (idx_main_v10 (ix2 e k)) = ix1 k :=
    funext fun a => Fin.ext (by match a with | ⟨0, _⟩ => rfl)
  rw [hsum, hbias]

/-- The reference's result array is the specification's: at (e, j) both are the sum over the 32 hidden units of
    hidden unit × second-layer weight, plus the second bias; the hidden units agree by `hidden_apply`, and the
    index of each factor is (e, k), (k, j) or j on both sides. -/
theorem ref_eq_spec (x0 x1 : (⟨S4000000x2, .f32⟩ : BufTy).Contents (Elt Ideal)) (x3 : (⟨S1024x32, .f32⟩ : BufTy).Contents (Elt Ideal))
    (x4 : (⟨S4000000, .i32⟩ : BufTy).Contents (Elt Ideal)) (x5 : (⟨S36x32, .f32⟩ : BufTy).Contents (Elt Ideal))
    (x6 : (⟨S32, .f32⟩ : BufTy).Contents (Elt Ideal)) (x7 : (⟨S32x32, .f32⟩ : BufTy).Contents (Elt Ideal))
    (x8 : (⟨S32, .f32⟩ : BufTy).Contents (Elt Ideal)) (hb : ∀ i, (x4 i).toNat < 1024) :
    val_main_v16 (F := Ideal) x0 x1 x3 x4 x5 x6 x7 x8 = Cert.EdgeMlp.outArr x0 x1 x3 x4 x5 x6 x7 x8 := by
  funext i
  obtain ⟨e, j, rfl⟩ : ∃ (e : Fin 4000000) (j : Fin 32), i = ix2 e j := ⟨i 0, i 1, eq_ix2 i⟩
  rw [Cert.EdgeMlp.outArr_ix2, val_main_v16_apply, val_main_v13_apply, val_main_v15_apply, val_main_v14_apply,
    Ideal.addf_def]
  unfold Cert.EdgeMlp.out
  have hsum : (∑ k : Fin 32, val_main_v12 (F := Ideal) x0 x1 x3 x4 x5 x6 (lidx_main_v13 (ix2 e j) k) * x7 (ridx_main_v13 (ix2 e j) k))
      = ∑ k : Fin 32, Cert.EdgeMlp.hidden x0 x1 x3 x4 x5 x6 e k * x7 (ix2 k j) := by
    refine Finset.sum_congr rfl fun k _ => ?_
    have hl : lidx_main_v13 (ix2 e j) k = ix2 e k :=
      funext fun a => Fin.ext (by match a with | ⟨0, _⟩ => rfl | ⟨1, _⟩ => rfl)
    have hr : ridx_main_v13 (ix2 e j) k = ix2 k j :=
      funext fun a => Fin.ext (by match a with | ⟨0, _⟩ => rfl | ⟨1, _⟩ => rfl)
    rw [hl, hr, hidden_apply x0 x1 x3 x4 x5 x6 hb e k]
  have hbias : idx_main_v14 (idx_main_v15 (ix2 e j)) = ix1 j :=
    funext fun a => Fin.ext (by match a with | ⟨0, _⟩ => rfl)
  rw [hsum, hbias]

end Cert.EdgeMlp.RefValue

end
-- ==== Proof.LibPlainMatmul.lean ====
/-
  A plain matrix product read at an index.

  `DotDims.plain M K N` contracts axis 1 of an `M × K` operand with axis 0 of a `K × N` operand, with no batch
  axis. At the ideal values a `tpu.matmul` with these dimension numbers into the zero accumulator is, at
  `(i, j)`, the sum over `k : Fin K` of `l (i, k) * r (k, j)` on the extended reals: the library's sum over the
  contraction shape's indices (`Ideal.matmul_constant_zero_apply`) re-indexed by the one coordinate of that shape
  (`ValueIdx.contrEquiv1`), the operand indices read off the dimension numbers.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The left operand's index at result `j` and contraction coordinate `k` is `(j 0, k)`. -/
theorem plain_lhsIdx (M K N : ℕ) (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl j _).trans hk

/-- The right operand's index at result `j` and contraction coordinate `k` is `(k, j 1)`. -/
theorem plain_rhsIdx (M K N : ℕ) (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single (cr := 0) rfl j _).trans hk
  | ⟨1, _⟩ => rfl

/-- A plain matmul into the zero accumulator, at an index: the sum of the products along the contracted axis. -/
theorem matmul_plain_zero_apply {φ₁ φ₂ : FTy} (M K N : ℕ) (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) := by
  rw [Ideal.matmul_constant_zero_apply, ← Equiv.sum_comp (contrEquiv1 (DotDims.plain M K N) K rfl rfl).symm]
  refine Finset.sum_congr rfl fun k _ => ?_
  rw [plain_lhsIdx, plain_rhsIdx]
  rfl

end Cert.Lib

end
-- ==== Proof.LibKeepdims.lean ====
/-
  Column vectors made by `keepdims`: a length-`a` vector viewed as an `[a, 1]` column, and such a column broadcast along
  the rows of an `[a, b]` array. Read at an index by coordinates, the column holds the vector's entry of its row, and the
  broadcast holds the column's entry of its row at every position of the row.
-/
import Idealize.ShloMosaic.Lib.Pipeline.Value
import Idealize.ShloMosaic.Lib.ValueIdx

noncomputable section

namespace Cert.Lib

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.Payload.lean ====
/-
  The arithmetic of the kernel body at one entry of a block of 16384 edges (columns).

  One trip of the gathering loop adds, to the carried 32 × 16384 array, the product of a 32 × 128 chunk of the
  transposed table with a 128 × 16384 array whose entry (g, q) is 1 when row number 128·k + g equals edge q's graph
  id and 0 otherwise. After the loop the 36 feature rows of a column are the two source rows, the two destination
  rows and the 32 gathered rows; a 32 × 36 product plus a bias column, a maximum with zero, and a 32 × 32 product
  plus a bias column follow. A change of float format is the identity on the extended reals, so each product into a
  zero accumulator is the plain finite sum along the contracted axis.
-/
import proofs.«418547_j34376918237201_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate
import proofs.«418547_j34376918237201_1_alg».proof.Proof.LibPlainMatmul
import proofs.«418547_j34376918237201_1_alg».proof.Proof.LibKeepdims

noncomputable section

open scoped BigOperators

namespace Cert.EdgeMlp.Payload

open Idealize.ShloMosaic Idealize.ShloMosaic.ValueIdx Cert.KernelIdeal Cert.KernelIdeal.Gen

variable [Cert.KernelIdeal.Facts]

/-- Feature k' of the edge in column q of a block: the two source rows, the two destination rows, then the 32
    gathered rows. -/
def colFeat (v5 : FVec Ideal S32x16384 .f32) (v6 v8 : Vec Ideal S2x16384 .f32) (q : Fin 16384) (k' : Fin 36) : EReal :=
  if h0 : k'.val < 2 then v6 (ix2 (⟨k'.val, h0⟩ : Fin 2) q)
  else if h1 : k'.val < 4 then v8 (ix2 (⟨k'.val - 2, by omega⟩ : Fin 2) q)
  else v5 (ix2 (⟨k'.val - 4, by omega⟩ : Fin 32) q)

/-- The row number plus the chunk's offset is the table column, as a word: neither the product nor the sum wraps. -/
theorem rowWord (k g : ℕ) (hk : k < 8) (hg : g < 128) :
    IntOp.addi (BitVec.ofNat 32 g) (Scalar.muli (Scf.iv 0#32 1#32 k) 128#32) = BitVec.ofNat 32 (128 * k + g) := by
  apply BitVec.eq_of_toNat_eq
  simp only [IntOp.addi, Scalar.muli, IntOp.muli, Scf.iv, BitVec.toNat_add, BitVec.toNat_mul, BitVec.toNat_ofNat]
  omega

/-- An equality test's bit, widened to a word and converted, is 1 when the two words agree and 0 when they differ. -/
theorem eqBit_toReal (a b : BitVec 32) :
    (FloatOps.sitofp (F := Ideal) .f32 ((IntOp.cmpi .eq a b).setWidth 32) : EReal) = if a = b then 1 else 0 := by
  by_cases h : a = b
  · rw [if_pos h, StableHlo.Predicate.cmpi_eq_iff.mpr h]
    show ((((1#1 : BitVec 1).setWidth 32).toInt : ℝ) : EReal) = 1
    have e : ((1#1 : BitVec 1).setWidth 32).toInt = 1 := by decide
    rw [e]; simp
  · rw [if_neg h, eq_zero_of_ne_one (fun h1 => h (StableHlo.Predicate.cmpi_eq_iff.mp h1))]
    show ((((0#1 : BitVec 1).setWidth 32).toInt : ℝ) : EReal) = 0
    have e : ((0#1 : BitVec 1).setWidth 32).toInt = 0 := by decide
    rw [e]; simp

/-- The edge's graph id, read through the row view of the id vector spread over the 128 rows. -/
theorem idRow_apply (v0 : Vec Ideal S16384 .i32) (g : Fin 128) (q : Fin 16384) :
    broadcastTo S128x16384 (shapeCast S1x16384 (shapeCast S16384 v0 shapeCasts_S16384_S16384) shapeCasts_S16384_S1x16384)
      broadcasts_S1x16384_S128x16384 (ix2 g q) = v0 (ix1 q) := by
  rw [shapeCast_self]
  exact (broadcastTo_1b_ab_apply _ _ g q).trans (shapeCast_a_1a_apply _ _ 0 q)

/-- The one-hot operand of trip k at row g and column q: 1 when table column 128k+g is the edge's graph id, else 0. -/
theorem onehot_apply (v0 : Vec Ideal S16384 .i32) (k : Fin k0_t1_loop.trips) (g : Fin 128) (q : Fin 16384) :
    (truncf .bf16 (sitofp (F := Ideal) .f32 (extui 32 (cmpi .eq
        (addi (iota .tc S128x16384 32 [0] iota_S128x16384_d0_w32) (broadcast S128x16384 (Scalar.muli (Scf.iv 0#32 1#32 k) 128#32)))
        (broadcastTo S128x16384 (shapeCast S1x16384 (shapeCast S16384 v0 shapeCasts_S16384_S16384) shapeCasts_S16384_S1x16384)
          broadcasts_S1x16384_S128x16384)) natLt_1_32)) bitsLt_bf16_f32 : FVec Ideal S128x16384 .bf16) (ix2 g q)
      = if BitVec.ofNat 32 (128 * k.val + g.val) = v0 (ix1 q) then (1 : EReal) else 0 := by
  have hk : k.val < 8 := Nat.lt_of_lt_of_le k.isLt k0_t1_abs.2.1
  have hw : IntOp.addi (iota .tc S128x16384 32 [0] iota_S128x16384_d0_w32 (ix2 g q)) (Scalar.muli (Scf.iv 0#32 1#32 k) 128#32)
      = BitVec.ofNat 32 (128 * k.val + g.val) := by
    rw [iota_single_apply]
    exact rowWord k.val g.val hk g.isLt
  show FloatOps.sitofp (F := Ideal) .f32 ((IntOp.cmpi .eq
      (IntOp.addi (iota .tc S128x16384 32 [0] iota_S128x16384_d0_w32 (ix2 g q)) (Scalar.muli (Scf.iv 0#32 1#32 k) 128#32))
      (broadcastTo S128x16384 (shapeCast S1x16384 (shapeCast S16384 v0 shapeCasts_S16384_S16384) shapeCasts_S16384_S1x16384)
          broadcasts_S1x16384_S128x16384 (ix2 g q))).setWidth 32) = _
  rw [hw, idRow_apply, eqBit_toReal]

/-- One trip's product at an entry: the chunk's 128 table columns against the one-hot column. -/
theorem chunkDot_apply (w : FVec Ideal S32x128 .bf16) (x : FVec Ideal S128x16384 .bf16) (d : Fin 32) (q : Fin 16384) :
    matmul dot_S32x128_S128x16384_S32x16384_1_0_0_1_n_n none (shapeCast S32x128 w shapeCasts_S32x128_S32x128) x
        (constant S32x16384 .f32 0x00000000#32) (ix2 d q)
      = ∑ g : Fin 128, w (ix2 d g) * x (ix2 g q) := by
  rw [shapeCast_self]
  exact Cert.Lib.matmul_plain_zero_apply 32 128 16384 none w x (ix2 d q)

/-- The first dense layer's product at an entry: row k of the weights against column q of the features. -/
theorem dense1_apply (w : FVec Ideal S32x36 .bf16) (x : FVec Ideal S36x16384 .bf16) (k : Fin 32) (q : Fin 16384) :
    matmul dot_S32x36_S36x16384_S32x16384_1_0_0_1_n_n none (shapeCast S32x36 w shapeCasts_S32x36_S32x36) x
        (constant S32x16384 .f32 0x00000000#32) (ix2 k q)
      = ∑ k' : Fin 36, w (ix2 k k') * x (ix2 k' q) := by
  rw [shapeCast_self]
  exact Cert.Lib.matmul_plain_zero_apply 32 36 16384 none w x (ix2 k q)

/-- The second dense layer's product at an entry: row j of the weights against column q of the hidden block. -/
theorem dense2_apply (w : FVec Ideal S32x32 .bf16) (x : FVec Ideal S32x16384 .bf16) (j : Fin 32) (q : Fin 16384) :
    matmul dot_S32x32_S32x16384_S32x16384_1_0_0_1_n_n none (shapeCast S32x32 w shapeCasts_S32x32_S32x32) x
        (constant S32x16384 .f32 0x00000000#32) (ix2 j q)
      = ∑ k : Fin 32, w (ix2 j k) * x (ix2 k q) := by
  rw [shapeCast_self]
  exact Cert.Lib.matmul_plain_zero_apply 32 32 16384 none w x (ix2 j q)

/-- A bias column spread along its rows, at an entry: the column's entry of that row. -/
theorem biasCol_apply (v : FVec Ideal S32x1 .f32) (j : Fin 32) (q : Fin 16384) :
    broadcastTo S32x16384 (shapeCast S32x1 v shapeCasts_S32x1_S32x1) broadcasts_S32x1_S32x16384 (ix2 j q)
      = v (ix2 j (0 : Fin 1)) := by
  rw [shapeCast_self]
  exact Cert.Lib.broadcastTo_a1_ab_apply v broadcasts_S32x1_S32x16384 j q

/-- The stacked feature block at an entry: rows 0, 1 read the first piece, rows 2, 3 the second at row k' - 2, the other
    rows the third at row k' - 4. -/
theorem feat_apply (x y : FVec Ideal S2x16384 .f32) (z : FVec Ideal S32x16384 .f32) (k' : Fin 36) (q : Fin 16384) :
    concatenate S36x16384 0 [⟨S2x16384, x⟩, ⟨S2x16384, y⟩, ⟨S32x16384, z⟩]
        concatenates_S2x16384_S2x16384_S32x16384_S36x16384_d0 (ix2 k' q)
      = colFeat z x y q k' := by
  unfold colFeat
  split
  · next h0 =>
    exact concatenate_apply_piece _ _ _ (ix2 k' q) 0 (by show 0 < 3; omega) S2x16384 x rfl rfl 0 rfl (ix2 (⟨k'.val, h0⟩ : Fin 2) q)
      (fun b => match b with | ⟨0, _⟩ => fun hb => absurd rfl hb | ⟨1, _⟩ => fun _ => rfl) (Nat.zero_add _)
  · next h0 =>
    split
    · next h1 =>
      exact concatenate_apply_piece _ _ _ (ix2 k' q) 1 (by show 1 < 3; omega) S2x16384 y rfl rfl 2 rfl
        (ix2 (⟨k'.val - 2, by omega⟩ : Fin 2) q)
        (fun b => match b with | ⟨0, _⟩ => fun hb => absurd rfl hb | ⟨1, _⟩ => fun _ => rfl)
        (by show 2 + (k'.val - 2) = k'.val; omega)
    · next h1 =>
      exact concatenate_apply_piece _ _ _ (ix2 k' q) 2 (by show 2 < 3; omega) S32x16384 z rfl rfl 4 rfl
        (ix2 (⟨k'.val - 4, by omega⟩ : Fin 32) q)
        (fun b => match b with | ⟨0, _⟩ => fun hb => absurd rfl hb | ⟨1, _⟩ => fun _ => rfl)
        (by show 4 + (k'.val - 4) = k'.val; omega)

/-- One trip of the gather loop, at an entry: the carried value plus the chunk's 128 table columns against the
    one-hot column of the edge. -/
theorem gatherStep_apply (v0 : Vec Ideal S16384 .i32) (k : Fin k0_t1_loop.trips) (acc : FVec Ideal S32x16384 .f32)
    (v41 : Vec Ideal S32x128 .bf16) (d : Fin 32) (q : Fin 16384) :
    k0_pay2 (F := Ideal) v0 k acc v41 (ix2 d q)
      = acc (ix2 d q) + ∑ g : Fin 128, v41 (ix2 d g) *
          (if BitVec.ofNat 32 (128 * k.val + g.val) = v0 (ix1 q) then (1 : EReal) else 0) := by
  unfold k0_pay2
  refine (addf_apply _ _ _).trans ?_
  refine congrArg (acc (ix2 d q) + ·) ?_
  refine (chunkDot_apply v41 _ d q).trans ?_
  refine Finset.sum_congr rfl fun g _ => ?_
  exact congrArg (v41 (ix2 d g) * ·) (onehot_apply v0 k g q)

/-- The two dense layers, at an entry. -/
theorem mlp_apply (v5 : FVec Ideal S32x16384 .f32) (v6 v8 : Vec Ideal S2x16384 .f32) (v12 : Vec Ideal S32x36 .bf16)
    (v14 : Vec Ideal S32x1 .f32) (v22 : Vec Ideal S32x32 .bf16) (v24 : Vec Ideal S32x1 .f32) (j : Fin 32) (q : Fin 16384) :
    k0_pay3 (F := Ideal) v5 v6 v8 v12 v14 v22 v24 (ix2 j q)
      = (∑ k : Fin 32, v22 (ix2 j k) *
            max ((∑ k' : Fin 36, v12 (ix2 k k') * colFeat v5 v6 v8 q k') + v14 (ix2 k (0 : Fin 1))) 0)
          + v24 (ix2 j (0 : Fin 1)) := by
  unfold k0_pay3
  refine (addf_apply _ _ _).trans ?_
  refine congrArg₂ (· + ·) ?_ (biasCol_apply v24 j q)
  refine (dense2_apply v22 _ j q).trans ?_
  refine Finset.sum_congr rfl fun k _ => ?_
  refine congrArg (v22 (ix2 j k) * ·) ?_
  refine (truncf_apply (ψ := .bf16) (φ := .f32) _ bitsLt_bf16_f32 _).trans ?_
  refine (maximumf_apply _ _ _).trans ?_
  refine congrArg₂ max ?_ Ideal.ofBits_zero_f32
  refine (addf_apply _ _ _).trans ?_
  refine congrArg₂ (· + ·) ?_ (biasCol_apply v14 k q)
  refine (dense1_apply v12 _ k q).trans ?_
  refine Finset.sum_congr rfl fun k' _ => ?_
  refine congrArg (v12 (ix2 k k') * ·) ?_
  refine (truncf_apply (ψ := .bf16) (φ := .f32) _ bitsLt_bf16_f32 _).trans ?_
  rw [shapeCast_self, shapeCast_self]
  exact feat_apply v6 v8 v5 k' q

/-- The loop's initial value is zero everywhere. -/
theorem gatherInit_apply (d : Fin 32) (q : Fin 16384) : (k0_pay1 (F := Ideal)) (ix2 d q) = 0 := by
  unfold k0_pay1
  exact Ideal.ofBits_zero_f32

end Cert.EdgeMlp.Payload

end
-- ==== Proof.BodyValue.lean ====
/-
  What one run of the kernel body leaves in its output block, as a value.

  The body's one store writes the whole 32 × 16384 block with the two dense layers applied to the loop's result and
  the loaded operands. The loop carries a 32 × 16384 array through eight trips from zero; trip k adds the product
  of the table's columns 128k … 128k + 127 with the one-hot rows of those columns. By induction over the trips the
  carried entry (d, q) after n trips is the sum over rows r < 128·n of (table entry (d, r)) × [r is edge q's id];
  after all eight trips the sum runs over all 1024 rows and, the id being below 1024, has exactly one non-zero
  term: the table's entry at the id's column.
-/
import proofs.«418547_j34376918237201_1_alg».proof.Proof.Gen.KernelIdeal.Frame
import proofs.«418547_j34376918237201_1_alg».proof.Proof.Payload
import proofs.«418547_j34376918237201_1_alg».proof.Proof.Spec
import Idealize.ShloMosaic.Lib.ValueIdx

set_option maxRecDepth 16384

noncomputable section

open scoped BigOperators

namespace Cert.EdgeMlp.Body

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-- The zero offsets of a rank-2 whole-buffer access. -/
theorem zeros2 : (![0, 0] : Fin 2 → Nat) = fun _ => 0 := by
  funext a; match a with | ⟨0, _⟩ => rfl | ⟨1, _⟩ => rfl
/-- The zero offset of a rank-1 whole-buffer access. -/
theorem zeros1 : (![0] : Fin 1 → Nat) = fun _ => 0 := by
  funext a; match a with | ⟨0, _⟩ => rfl

/-- The loop makes eight trips. -/
theorem trips_eq : k0_t1_loop.trips = 8 := by decide

/-- ONE TRIP of the gather loop: the carried value goes to the trip's payload of the carried value and of the
    128 table columns the trip loads (columns 128k … 128k + 127). -/
theorem trip_value (𝒱 : Variants) (bd : Option 𝒱.V) (c : Dev nD) (i : grid0.Coords) (arg1 : Memref sig .tc .vmem S2x16384 .f32) (harg1 : arg1.IsWhole) (arg2 : Memref sig .tc .vmem S2x16384 .f32) (harg2 : arg2.IsWhole) (arg3 : Memref sig .tc .vmem S16384 .i32) (harg3 : arg3.IsWhole) (arg4 : Memref sig .tc .vmem S32x1024 .bf16) (harg4 : arg4.IsWhole) (arg5 : Memref sig .tc .vmem S32x36 .bf16) (harg5 : arg5.IsWhole) (arg6 : Memref sig .tc .vmem S32x1 .f32) (harg6 : arg6.IsWhole) (arg7 : Memref sig .tc .vmem S32x32 .bf16) (harg7 : arg7.IsWhole) (arg8 : Memref sig .tc .vmem S32x1 .f32) (harg8 : arg8.IsWhole) (arg9 : Memref sig .tc .vmem S32x16384 .f32) (harg9 : arg9.IsWhole) (v0 : Vec F S16384 .i32)
    (X_arg4 : BufTy.Contents (Elt F) arg4.view.ty) (k : Fin k0_t1_loop.trips) (acc : FVec F S32x16384 .f32) :
    tripR_k0_t1 (F := F) 𝒱 c bd i arg1 harg1 arg2 harg2 arg3 harg3 arg4 harg4 arg5 harg5 arg6 harg6 arg7 harg7 arg8 harg8 arg9 harg9 v0 X_arg4 k acc
      = k0_pay2 v0 k acc (View.readAt (Elt F) arg4.view (Rect.unit (s := S32x1024) (k0_off1 k) S32x128.size (k0_off1_inb k)).toLoadRect X_arg4) := by
  unfold tripR_k0_t1 trip_k0_t1
  rfl

/-- WHAT THE BODY LEAVES in the output block, as a value: the two dense layers applied to the source block, the
    destination block and the loop's result, the loop started from zero and run over the graph-id block and the
    whole table. -/
theorem out_block (c : Dev nD) (i : grid0.Coords) (arg1 : Memref sig .tc .vmem S2x16384 .f32) (harg1 : arg1.IsWhole) (arg2 : Memref sig .tc .vmem S2x16384 .f32) (harg2 : arg2.IsWhole) (arg3 : Memref sig .tc .vmem S16384 .i32) (harg3 : arg3.IsWhole) (arg4 : Memref sig .tc .vmem S32x1024 .bf16) (harg4 : arg4.IsWhole) (arg5 : Memref sig .tc .vmem S32x36 .bf16) (harg5 : arg5.IsWhole) (arg6 : Memref sig .tc .vmem S32x1 .f32) (harg6 : arg6.IsWhole) (arg7 : Memref sig .tc .vmem S32x32 .bf16) (harg7 : arg7.IsWhole) (arg8 : Memref sig .tc .vmem S32x1 .f32) (harg8 : arg8.IsWhole) (arg9 : Memref sig .tc .vmem S32x16384 .f32) (harg9 : arg9.IsWhole) (x0 : Vec F S2x16384 .f32) (x1 : Vec F S2x16384 .f32) (x2 : Vec F S16384 .i32) (x3 : Vec F S32x1024 .bf16) (x4 : Vec F S32x36 .bf16) (x5 : Vec F S32x1 .f32) (x6 : Vec F S32x32 .bf16) (x7 : Vec F S32x1 .f32) :
    out0_A_8 c i arg1 harg1 arg2 harg2 arg3 harg3 arg4 harg4 arg5 harg5 arg6 harg6 arg7 harg7 arg8 harg8 arg9 harg9 x0 x1 x2 x3 x4 x5 x6 x7
      = k0_pay3 (st_k0_t1 (F := F) Variants.none c none i arg1 harg1 arg2 harg2 arg3 harg3 arg4 harg4 arg5 harg5 arg6 harg6 arg7 harg7 arg8 harg8 arg9 harg9 x2 (harg4.unread x3) k0_pay1 k0_t1_loop.trips)
          x0 x1 x4 x5 x6 x7 := by
  unfold out0_A_8
  rw [View.read_writes_eq_canon _ _ _ (cover0_A_8 c i arg1 harg1 arg2 harg2 arg3 harg3 arg4 harg4 arg5 harg5 arg6 harg6 arg7 harg7 arg8 harg8 arg9 harg9 x0 x1 x2 x3 x4 x5 x6 x7)]
  unfold kernelRun0_A
  dsimp only
  sl_unfold_words
  rw [View.canon_unit_zero zeros2]
  simp only [View.readAt_eq_ld, harg1.read_unread, harg2.read_unread, harg3.read_unread, harg5.read_unread, harg6.read_unread,
    harg7.read_unread, harg8.read_unread, View.ld_unit_zero (S := S2x16384) zeros2, View.ld_unit_zero (S := S16384) zeros1,
    View.ld_unit_zero (S := S32x36) zeros2, View.ld_unit_zero (S := S32x1) zeros2, View.ld_unit_zero (S := S32x32) zeros2]

/-! ## At the ideal values: the loop gathers the edge's row of the table -/

section AtIdeal

/-- The indicator that table row r is the one a graph-id word names. -/
def rowInd (w : BitVec 32) (r : ℕ) : EReal := if BitVec.ofNat 32 r = w then 1 else 0

/-- Row r's contribution to entry d of the gathered vector: the table entry times the indicator; nothing past the
    table's 1024 rows. -/
def rowTerm (x3 : Vec Ideal S32x1024 .bf16) (w : BitVec 32) (d : Fin 32) (r : ℕ) : EReal :=
  if h : r < 1024 then x3 (ix2 d (⟨r, h⟩ : Fin 1024)) * rowInd w r else 0

/-- The 128 table columns trip k loads are columns 128k … 128k + 127 of the whole table. -/
theorem chunk_entry (arg4 : Memref sig .tc .vmem S32x1024 .bf16) (harg4 : arg4.IsWhole) (x3 : Vec Ideal S32x1024 .bf16)
    (k : Fin k0_t1_loop.trips) (d : Fin 32) (g : Fin 128) (h : 128 * k.val + g.val < 1024) :
    View.readAt (Elt Ideal) arg4.view (Rect.unit (s := S32x1024) (k0_off1 k) S32x128.size (k0_off1_inb k)).toLoadRect (harg4.unread x3) (ix2 d g)
      = x3 (ix2 d (⟨128 * k.val + g.val, h⟩ : Fin 1024)) := by
  rw [View.readAt_eq_ld, harg4.read_unread]
  show x3 _ = x3 _
  refine congrArg x3 (funext fun a => Fin.ext ?_)
  have e := k0_off1_eq k
  match a with
  | ⟨0, _⟩ =>
    show (k0_off1 k) 0 + 1 * d.val = d.val
    rw [e]; show 0 + 1 * d.val = d.val; omega
  | ⟨1, _⟩ =>
    show (k0_off1 k) 1 + 1 * g.val = 128 * k.val + g.val
    rw [e]; show 128 * k.val + 1 * g.val = 128 * k.val + g.val; omega

/-- After n trips, entry (d, q) of the carried value is the sum of the first 128·n rows' contributions. -/
theorem loop_entry (c : Dev nD) (i : grid0.Coords) (arg1 : Memref sig .tc .vmem S2x16384 .f32) (harg1 : arg1.IsWhole) (arg2 : Memref sig .tc .vmem S2x16384 .f32) (harg2 : arg2.IsWhole) (arg3 : Memref sig .tc .vmem S16384 .i32) (harg3 : arg3.IsWhole) (arg4 : Memref sig .tc .vmem S32x1024 .bf16) (harg4 : arg4.IsWhole) (arg5 : Memref sig .tc .vmem S32x36 .bf16) (harg5 : arg5.IsWhole) (arg6 : Memref sig .tc .vmem S32x1 .f32) (harg6 : arg6.IsWhole) (arg7 : Memref sig .tc .vmem S32x32 .bf16) (harg7 : arg7.IsWhole) (arg8 : Memref sig .tc .vmem S32x1 .f32) (harg8 : arg8.IsWhole) (arg9 : Memref sig .tc .vmem S32x16384 .f32) (harg9 : arg9.IsWhole) (x2 : Vec Ideal S16384 .i32) (x3 : Vec Ideal S32x1024 .bf16) (d : Fin 32) (q : Fin 16384) :
    ∀ n : ℕ, n ≤ k0_t1_loop.trips →
      st_k0_t1 (F := Ideal) Variants.none c none i arg1 harg1 arg2 harg2 arg3 harg3 arg4 harg4 arg5 harg5 arg6 harg6 arg7 harg7 arg8 harg8 arg9 harg9 x2 (harg4.unread x3) (k0_pay1 (F := Ideal)) n (ix2 d q)
        = ∑ r ∈ Finset.range (128 * n), rowTerm x3 (x2 (ix1 q)) d r
  | 0, _ => by
    rw [Nat.mul_zero, Finset.range_zero, Finset.sum_empty]
    exact Cert.EdgeMlp.Payload.gatherInit_apply d q
  | n + 1, hn => by
    have hlt : n < k0_t1_loop.trips := hn
    have h8 : n < 8 := trips_eq ▸ hlt
    have ih := loop_entry c i arg1 harg1 arg2 harg2 arg3 harg3 arg4 harg4 arg5 harg5 arg6 harg6 arg7 harg7 arg8 harg8 arg9 harg9 x2 x3 d q n (Nat.le_of_lt hlt)
    have e := st_k0_t1_succ (F := Ideal) Variants.none c none i arg1 harg1 arg2 harg2 arg3 harg3 arg4 harg4 arg5 harg5 arg6 harg6 arg7 harg7 arg8 harg8 arg9 harg9 x2 (harg4.unread x3) (k0_pay1 (F := Ideal)) ⟨n, hlt⟩
    refine (congrFun e (ix2 d q)).trans ?_
    rw [trip_value, Cert.EdgeMlp.Payload.gatherStep_apply, ih, Nat.mul_succ, Finset.sum_range_add]
    congr 1
    rw [Finset.sum_range]
    refine Finset.sum_congr rfl fun g _ => ?_
    have hg : 128 * n + g.val < 1024 := by have := g.isLt; omega
    rw [chunk_entry arg4 harg4 x3 ⟨n, hlt⟩ d g hg]
    unfold rowTerm rowInd
    rw [dif_pos hg]

/-- THE GATHER: where the edge's graph id is below 1024, entry (d, q) of the loop's result is the table's entry of
    row d at the column the id names — the one-hot sum has one non-zero term. -/
theorem gathered_entry (c : Dev nD) (i : grid0.Coords) (arg1 : Memref sig .tc .vmem S2x16384 .f32) (harg1 : arg1.IsWhole) (arg2 : Memref sig .tc .vmem S2x16384 .f32) (harg2 : arg2.IsWhole) (arg3 : Memref sig .tc .vmem S16384 .i32) (harg3 : arg3.IsWhole) (arg4 : Memref sig .tc .vmem S32x1024 .bf16) (harg4 : arg4.IsWhole) (arg5 : Memref sig .tc .vmem S32x36 .bf16) (harg5 : arg5.IsWhole) (arg6 : Memref sig .tc .vmem S32x1 .f32) (harg6 : arg6.IsWhole) (arg7 : Memref sig .tc .vmem S32x32 .bf16) (harg7 : arg7.IsWhole) (arg8 : Memref sig .tc .vmem S32x1 .f32) (harg8 : arg8.IsWhole) (arg9 : Memref sig .tc .vmem S32x16384 .f32) (harg9 : arg9.IsWhole) (x2 : Vec Ideal S16384 .i32) (x3 : Vec Ideal S32x1024 .bf16) (d : Fin 32) (q : Fin 16384)
    (hb : (x2 (ix1 q) : BitVec 32).toNat < 1024) :
    st_k0_t1 (F := Ideal) Variants.none c none i arg1 harg1 arg2 harg2 arg3 harg3 arg4 harg4 arg5 harg5 arg6 harg6 arg7 harg7 arg8 harg8 arg9 harg9 x2 (harg4.unread x3) (k0_pay1 (F := Ideal)) k0_t1_loop.trips (ix2 d q)
      = x3 (ix2 d (⟨(x2 (ix1 q) : BitVec 32).toNat, hb⟩ : Fin 1024)) := by
  rw [loop_entry c i arg1 harg1 arg2 harg2 arg3 harg3 arg4 harg4 arg5 harg5 arg6 harg6 arg7 harg7 arg8 harg8 arg9 harg9 x2 x3 d q _ (Nat.le_refl _), trips_eq, show 128 * 8 = 1024 from rfl, Finset.sum_range]
  have key : ∀ r : Fin 1024, rowTerm x3 (x2 (ix1 q)) d r.val
      = x3 (ix2 d r) * (if r = (⟨(x2 (ix1 q) : BitVec 32).toNat, hb⟩ : Fin 1024) then (1 : EReal) else 0) := by
    intro r
    unfold rowTerm rowInd
    rw [dif_pos r.isLt]
    congr 1
    have hr : (BitVec.ofNat 32 r.val).toNat = r.val := by
      rw [BitVec.toNat_ofNat]; exact Nat.mod_eq_of_lt (by have := r.isLt; omega)
    by_cases hEq : BitVec.ofNat 32 r.val = x2 (ix1 q)
    · rw [if_pos hEq, if_pos (Fin.ext (hr.symm.trans (congrArg BitVec.toNat hEq)))]
    · rw [if_neg hEq, if_neg (fun h' => hEq (BitVec.eq_of_toNat_eq (hr.trans (congrArg Fin.val h'))))]
  rw [Finset.sum_congr rfl fun r _ => key r]
  exact Cert.EdgeMlp.sum_indicator (fun r => x3 (ix2 d r)) _

/-- Feature k' of the edge in column q of a block, from the block's operands: the source rows, the destination
    rows, then the table's column the edge's graph id names. -/
def blockFeat (x0 x1 : Vec Ideal S2x16384 .f32) (x2 : Vec Ideal S16384 .i32) (x3 : Vec Ideal S32x1024 .bf16)
    (q : Fin 16384) (k' : Fin 36) : EReal :=
  if h0 : k'.val < 2 then x0 (ix2 (⟨k'.val, h0⟩ : Fin 2) q)
  else if h1 : k'.val < 4 then x1 (ix2 (⟨k'.val - 2, by omega⟩ : Fin 2) q)
  else x3 (ix2 (⟨k'.val - 4, by omega⟩ : Fin 32)
    (⟨(x2 (ix1 q) : BitVec 32).toNat % 1024, Nat.mod_lt _ (by decide)⟩ : Fin 1024))

/-- THE BLOCK THE BODY LEAVES, at an entry: where every graph id of the block is below 1024, entry (j, q) is the
    second layer's row j applied to the positive part of the first layer applied to the features of the edge in
    column q. -/
theorem block_entry (c : Dev nD) (i : grid0.Coords) (arg1 : Memref sig .tc .vmem S2x16384 .f32) (harg1 : arg1.IsWhole) (arg2 : Memref sig .tc .vmem S2x16384 .f32) (harg2 : arg2.IsWhole) (arg3 : Memref sig .tc .vmem S16384 .i32) (harg3 : arg3.IsWhole) (arg4 : Memref sig .tc .vmem S32x1024 .bf16) (harg4 : arg4.IsWhole) (arg5 : Memref sig .tc .vmem S32x36 .bf16) (harg5 : arg5.IsWhole) (arg6 : Memref sig .tc .vmem S32x1 .f32) (harg6 : arg6.IsWhole) (arg7 : Memref sig .tc .vmem S32x32 .bf16) (harg7 : arg7.IsWhole) (arg8 : Memref sig .tc .vmem S32x1 .f32) (harg8 : arg8.IsWhole) (arg9 : Memref sig .tc .vmem S32x16384 .f32) (harg9 : arg9.IsWhole) (x0 : Vec Ideal S2x16384 .f32) (x1 : Vec Ideal S2x16384 .f32) (x2 : Vec Ideal S16384 .i32) (x3 : Vec Ideal S32x1024 .bf16) (x4 : Vec Ideal S32x36 .bf16) (x5 : Vec Ideal S32x1 .f32) (x6 : Vec Ideal S32x32 .bf16) (x7 : Vec Ideal S32x1 .f32)
    (hb : ∀ q : Fin 16384, (x2 (ix1 q) : BitVec 32).toNat < 1024) (j : Fin 32) (q : Fin 16384) :
    out0_A_8 (F := Ideal) c i arg1 harg1 arg2 harg2 arg3 harg3 arg4 harg4 arg5 harg5 arg6 harg6 arg7 harg7 arg8 harg8 arg9 harg9 x0 x1 x2 x3 x4 x5 x6 x7 (ix2 j q)
      = (∑ k : Fin 32, x6 (ix2 j k) *
            max ((∑ k' : Fin 36, x4 (ix2 k k') * blockFeat x0 x1 x2 x3 q k') + x5 (ix2 k (0 : Fin 1))) 0)
          + x7 (ix2 j (0 : Fin 1)) := by
  rw [out_block, Cert.EdgeMlp.Payload.mlp_apply]
  congr 1
  refine Finset.sum_congr rfl fun k _ => ?_
  congr 2
  congr 1
  refine Finset.sum_congr rfl fun k' _ => ?_
  congr 1
  unfold Cert.EdgeMlp.Payload.colFeat blockFeat
  by_cases h0 : k'.val < 2
  · rw [dif_pos h0, dif_pos h0]
  · rw [dif_neg h0, dif_neg h0]
    by_cases h1 : k'.val < 4
    · rw [dif_pos h1, dif_pos h1]
    · rw [dif_neg h1, dif_neg h1, gathered_entry c i arg1 harg1 arg2 harg2 arg3 harg3 arg4 harg4 arg5 harg5 arg6 harg6 arg7 harg7 arg8 harg8 arg9 harg9 x2 x3 _ q (hb q)]
      exact congrArg x3 (congrArg (ix2 _) (Fin.ext (Nat.mod_eq_of_lt (hb q)).symm))

end AtIdeal

end Cert.EdgeMlp.Body

end
-- ==== Proof.HostPrefix.lean ====
/-
  The eight operand arrays the launch is given, as functions of the arguments.

  The two coordinate arrays get 14080 further rows of zeros and are transposed (2 rows, 4014080 columns); the id
  array gets 14080 further zeros; the table and the two weight matrices are transposed (their change of float format
  is the identity on the extended reals); each bias vector becomes a column. Each array is read at an index by
  coordinates: a transposed array at (r, q) is the operand at (q, r); a padded one is the operand below row
  4000000 and the fill value from there on; a column at (k, 0) is the vector's entry k.
-/
import proofs.«418547_j34376918237201_1_alg».proof.Proof.Gen.KernelIdeal.Frame
import proofs.«418547_j34376918237201_1_alg».proof.Proof.LibKeepdims
import Idealize.ShloMosaic.Lib.ValueIdx
import Idealize.ShloMosaic.Lib.ValueLayout
import Idealize.ShloMosaic.Lib.Pipeline.Value
import Idealize.ShloMosaic.Lib.StableHlo.Run
import Idealize.ShloMosaic.Lib.KernelVsHost

noncomputable section

namespace Cert.EdgeMlp.HostPrefix

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ)

/-- The launch contents of the arguments, at their literal types. -/
abbrev aSrc (c : Dev nD) : S4000000x2.Idx → EReal := m ((c.tc : Thread nD τ).loc main_arg0)
abbrev aDest (c : Dev nD) : S4000000x2.Idx → EReal := m ((c.tc : Thread nD τ).loc main_arg1)
abbrev aU (c : Dev nD) : S1024x32.Idx → EReal := m ((c.tc : Thread nD τ).loc main_arg3)
abbrev aBatch (c : Dev nD) : S4000000.Idx → BitVec 32 := m ((c.tc : Thread nD τ).loc main_arg4)
abbrev aW1 (c : Dev nD) : S36x32.Idx → EReal := m ((c.tc : Thread nD τ).loc main_arg5)
abbrev aB1 (c : Dev nD) : S32.Idx → EReal := m ((c.tc : Thread nD τ).loc main_arg6)
abbrev aW2 (c : Dev nD) : S32x32.Idx → EReal := m ((c.tc : Thread nD τ).loc main_arg7)
abbrev aB2 (c : Dev nD) : S32.Idx → EReal := m ((c.tc : Thread nD τ).loc main_arg8)

/-! ## The index laws of the layout operations, over arbitrary contents -/

/-- The integer zero, read as a float, is the float zero: the fill value of the float pads. -/
theorem fillF_apply (i : S_.Idx) :
    (sitofp (F := Ideal) .f32 (constantI S_ 32 0#32) : S_.Idx → EReal) i = 0 := by
  show ((((0#32 : BitVec 32).toInt : ℤ) : ℝ) : EReal) = 0
  simp only [BitVec.toInt_zero, Int.cast_zero, EReal.coe_zero]

/-- An array of 4000000 rows and 2 columns, given 14080 further rows of the fill value: row `q` is the
    operand's row `q` while `q < 4000000`, and the fill value afterwards. -/
theorem padRows_apply (x : S4000000x2.Idx → EReal) (v : S_.Idx → EReal) (q : Fin 4014080) (r : Fin 2) :
    pad S4014080x2 ![0, 0] ![14080, 0] ![0, 0] x v pads_S4000000x2_S4014080x2_0140800_000 h_S_ (ix2 q r)
      = if h : q.val < 4000000 then x (ix2 (⟨q.val, h⟩ : Fin 4000000) r) else v (Shape.Idx.first h_S_) := by
  by_cases h : q.val < 4000000
  · rw [dif_pos h]
    refine pad_apply_of_inside _ _ _ x v pads_S4000000x2_S4014080x2_0140800_000 h_S_ (ix2 q r)
      (ix2 (⟨q.val, h⟩ : Fin 4000000) r) fun a => ?_
    match a with
    | ⟨0, _⟩ => show q.val = 0 + q.val * (0 + 1); omega
    | ⟨1, _⟩ => show r.val = 0 + r.val * (0 + 1); omega
  · rw [dif_neg h]
    refine pad_apply_of_not_inside _ _ _ x v pads_S4000000x2_S4014080x2_0140800_000 h_S_ (ix2 q r) (0 : Fin 2) fun hin => h ?_
    have e : (q.val - 0) / (0 + 1) < 4000000 := hin.2.2
    simpa only [Nat.sub_zero, Nat.zero_add, Nat.div_one] using e

/-- The padded array transposed: column `q` of row `r` is the operand's entry `(q, r)` while `q < 4000000`,
    and the fill value afterwards. -/
theorem padRowsT_apply (x : S4000000x2.Idx → EReal) (v : S_.Idx → EReal) (r : Fin 2) (q : Fin 4014080) :
    transpose S2x4014080 [1, 0]
        (pad S4014080x2 ![0, 0] ![14080, 0] ![0, 0] x v pads_S4000000x2_S4014080x2_0140800_000 h_S_)
        transposes_S4014080x2_S2x4014080_1_0 (ix2 r q)
      = if h : q.val < 4000000 then x (ix2 (⟨q.val, h⟩ : Fin 4000000) r) else v (Shape.Idx.first h_S_) :=
  (transpose_ix2_apply _ transposes_S4014080x2_S2x4014080_1_0 r q).trans (padRows_apply x v q r)

/-- A vector of 4000000 words given 14080 further entries of the fill value: entry `q` is the operand's while
    `q < 4000000`, and the fill value afterwards. -/
theorem padVec_apply (x : S4000000.Idx → BitVec 32) (v : S_.Idx → BitVec 32) (q : Fin 4014080) :
    pad S4014080 ![0] ![14080] ![0] x v pads_S4000000_S4014080_0140800 h_S_ (ix1 q)
      = if h : q.val < 4000000 then x (ix1 (⟨q.val, h⟩ : Fin 4000000)) else v (Shape.Idx.first h_S_) := by
  by_cases h : q.val < 4000000
  · rw [dif_pos h]
    refine pad_apply_of_inside _ _ _ x v pads_S4000000_S4014080_0140800 h_S_ (ix1 q)
      (ix1 (⟨q.val, h⟩ : Fin 4000000)) fun a => ?_
    match a with
    | ⟨0, _⟩ => show q.val = 0 + q.val * (0 + 1); omega
  · rw [dif_neg h]
    refine pad_apply_of_not_inside _ _ _ x v pads_S4000000_S4014080_0140800 h_S_ (ix1 q) (0 : Fin 1) fun hin => h ?_
    have e : (q.val - 0) / (0 + 1) < 4000000 := hin.2.2
    simpa only [Nat.sub_zero, Nat.zero_add, Nat.div_one] using e

/-! ## Each operand array as a term of the arguments -/

/-- The first coordinate array as the kernel finds it: the argument padded with zero rows, then transposed. -/
theorem srcT_term (c : Dev nD) :
    (V m c main_v3 : S2x4014080.Idx → EReal)
      = transpose S2x4014080 [1, 0] (pad S4014080x2 ![0, 0] ![14080, 0] ![0, 0] (aSrc m c)
          (sitofp (F := Ideal) .f32 (constantI S_ 32 0#32)) pads_S4000000x2_S4014080x2_0140800_000 h_S_)
          transposes_S4014080x2_S2x4014080_1_0 := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

/-- The second coordinate array as the kernel finds it: the argument padded with zero rows, then transposed. -/
theorem destT_term (c : Dev nD) :
    (V m c main_v4 : S2x4014080.Idx → EReal)
      = transpose S2x4014080 [1, 0] (pad S4014080x2 ![0, 0] ![14080, 0] ![0, 0] (aDest m c)
          (sitofp (F := Ideal) .f32 (constantI S_ 32 0#32)) pads_S4000000x2_S4014080x2_0140800_000 h_S_)
          transposes_S4014080x2_S2x4014080_1_0 := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

/-- The segment numbers as the kernel finds them: the argument padded with zero words. -/
theorem batchPad_term (c : Dev nD) :
    (V m c main_v2 : S4014080.Idx → BitVec 32)
      = pad S4014080 ![0] ![14080] ![0] (aBatch m c) (id (constantI S_ 32 0#32)) pads_S4000000_S4014080_0140800 h_S_ := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

/-- The per-segment features as the kernel finds them: the argument transposed, then narrowed in format. -/
theorem uT_term (c : Dev nD) :
    (V m c main_v6 : S32x1024.Idx → EReal)
      = truncf (φ := .f32) .bf16 (transpose S32x1024 [1, 0] (aU m c) transposes_S1024x32_S32x1024_1_0 : FVec Ideal S32x1024 .f32) bitsLt_bf16_f32 := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results

/-- The first weight matrix as the kernel finds it: the argument transposed, then narrowed in format. -/
theorem w1T_term (c : Dev nD) :
    (V m c main_v8 : S32x36.Idx → EReal)
      = truncf (φ := .f32) .bf16 (transpose S32x36 [1, 0] (aW1 m c) transposes_S36x32_S32x36_1_0 : FVec Ideal S32x36 .f32) bitsLt_bf16_f32 := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results

/-- The second weight matrix as the kernel finds it: the argument transposed, then narrowed in format. -/
theorem w2T_term (c : Dev nD) :
    (V m c main_v10 : S32x32.Idx → EReal)
      = truncf (φ := .f32) .bf16 (transpose S32x32 [1, 0] (aW2 m c) transposes_S32x32_S32x32_1_0 : FVec Ideal S32x32 .f32) bitsLt_bf16_f32 := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results

/-- The first bias as the kernel finds it: the argument viewed as a column. -/
theorem b1col_term (c : Dev nD) :
    (V m c main_v11 : S32x1.Idx → EReal) = shapeCast S32x1 (aB1 m c) shapeCasts_S32_S32x1 := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

/-- The second bias as the kernel finds it: the argument viewed as a column. -/
theorem b2col_term (c : Dev nD) :
    (V m c main_v12 : S32x1.Idx → EReal) = shapeCast S32x1 (aB2 m c) shapeCasts_S32_S32x1 := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

/-! ## The operand arrays read at an index -/

/-- The source coordinates, transposed and padded: entry (r, q) is the argument's (q, r) below column 4000000, zero from there on. -/
theorem srcT_apply (c : Dev nD) (r : Fin 2) (q : Fin 4014080) :
    (V m c main_v3 : S2x4014080.Idx → EReal) (ix2 r q)
      = if h : q.val < 4000000 then aSrc m c (ix2 (⟨q.val, h⟩ : Fin 4000000) r) else (0 : EReal) := by
  refine (congrFun (srcT_term m c) (ix2 r q)).trans ?_
  refine (padRowsT_apply (aSrc m c) _ r q).trans ?_
  rw [fillF_apply]

/-- The destination coordinates, transposed and padded: entry (r, q) is the argument's (q, r) below column 4000000, zero from there on. -/
theorem destT_apply (c : Dev nD) (r : Fin 2) (q : Fin 4014080) :
    (V m c main_v4 : S2x4014080.Idx → EReal) (ix2 r q)
      = if h : q.val < 4000000 then aDest m c (ix2 (⟨q.val, h⟩ : Fin 4000000) r) else (0 : EReal) := by
  refine (congrFun (destT_term m c) (ix2 r q)).trans ?_
  refine (padRowsT_apply (aDest m c) _ r q).trans ?_
  rw [fillF_apply]

/-- The graph ids, padded: entry q is the argument's below 4000000, the zero word from there on. -/
theorem batchPad_apply (c : Dev nD) (q : Fin 4014080) :
    (V m c main_v2 : S4014080.Idx → BitVec 32) (ix1 q)
      = if h : q.val < 4000000 then aBatch m c (ix1 (⟨q.val, h⟩ : Fin 4000000)) else 0#32 := by
  refine (congrFun (batchPad_term m c) (ix1 q)).trans ?_
  exact padVec_apply (aBatch m c) _ q

/-- The table, transposed: entry (d, g) is the argument's (g, d). -/
theorem uT_apply (c : Dev nD) (d : Fin 32) (g : Fin 1024) :
    (V m c main_v6 : S32x1024.Idx → EReal) (ix2 d g) = aU m c (ix2 g d) := by
  refine (congrFun (uT_term m c) (ix2 d g)).trans ?_
  exact transpose_ix2_apply (aU m c) transposes_S1024x32_S32x1024_1_0 d g

/-- The first layer's weights, transposed: entry (k, k') is the argument's (k', k). -/
theorem w1T_apply (c : Dev nD) (k : Fin 32) (k' : Fin 36) :
    (V m c main_v8 : S32x36.Idx → EReal) (ix2 k k') = aW1 m c (ix2 k' k) := by
  refine (congrFun (w1T_term m c) (ix2 k k')).trans ?_
  exact transpose_ix2_apply (aW1 m c) transposes_S36x32_S32x36_1_0 k k'

/-- The second layer's weights, transposed: entry (j, k) is the argument's (k, j). -/
theorem w2T_apply (c : Dev nD) (j : Fin 32) (k : Fin 32) :
    (V m c main_v10 : S32x32.Idx → EReal) (ix2 j k) = aW2 m c (ix2 k j) := by
  refine (congrFun (w2T_term m c) (ix2 j k)).trans ?_
  exact transpose_ix2_apply (aW2 m c) transposes_S32x32_S32x32_1_0 j k

/-- The first bias as a column: entry (k, 0) is the argument's entry k. -/
theorem b1col_apply (c : Dev nD) (k : Fin 32) (z : Fin 1) :
    (V m c main_v11 : S32x1.Idx → EReal) (ix2 k z) = aB1 m c (ix1 k) := by
  refine (congrFun (b1col_term m c) (ix2 k z)).trans ?_
  exact Cert.Lib.shapeCast_a_a1_apply (aB1 m c) shapeCasts_S32_S32x1 k z

/-- The second bias as a column: entry (j, 0) is the argument's entry j. -/
theorem b2col_apply (c : Dev nD) (j : Fin 32) (z : Fin 1) :
    (V m c main_v12 : S32x1.Idx → EReal) (ix2 j z) = aB2 m c (ix1 j) := by
  refine (congrFun (b2col_term m c) (ix2 j z)).trans ?_
  exact Cert.Lib.shapeCast_a_a1_apply (aB2 m c) shapeCasts_S32_S32x1 j z

end Cert.EdgeMlp.HostPrefix

end
-- ==== Proof.KernelValue.lean ====
/-
  From the blocks the grid points write to the kernel program's result array.

  Grid point t is given columns 16384·t … 16384·t + 16383 of the two coordinate arrays and of the id array, and the
  whole table, weights and biases; what it writes back is the same columns of ONE function of the eight operand
  arrays (both layers applied column by column). The 245 blocks tile the 32 × 4014080 result, so after the run the
  result array is that function. The host then transposes it and keeps the first 4000000 rows; below row 4000000
  the padded operands are the arguments themselves, the padded ids are still below 1024 (the padding is zero), and
  with the factors of each product exchanged the entry (e, j) is the specification's.
-/
import proofs.«418547_j34376918237201_1_alg».proof.Proof.Gen.KernelIdeal.Frame
import proofs.«418547_j34376918237201_1_alg».proof.Proof.BodyValue
import proofs.«418547_j34376918237201_1_alg».proof.Proof.HostPrefix
import proofs.«418547_j34376918237201_1_alg».proof.Proof.Spec
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

open scoped BigOperators

namespace Cert.EdgeMlp.KernelValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.EdgeMlp.HostPrefix

/-! ## The result array of the launch as one function of its eight operand arrays -/

/-- Feature k' of the edge in column e of the padded, transposed operands. -/
def colFeat (sT dT : S2x4014080.Idx → EReal) (bP : S4014080.Idx → BitVec 32) (uT : S32x1024.Idx → EReal)
    (e : Fin 4014080) (k' : Fin 36) : EReal :=
  if h0 : k'.val < 2 then sT (ix2 (⟨k'.val, h0⟩ : Fin 2) e)
  else if h1 : k'.val < 4 then dT (ix2 (⟨k'.val - 2, by omega⟩ : Fin 2) e)
  else uT (ix2 (⟨k'.val - 4, by omega⟩ : Fin 32) (⟨(bP (ix1 e)).toNat % 1024, Nat.mod_lt _ (by decide)⟩ : Fin 1024))

/-- Output row j of the edge in column e: both layers, with the weights on the left as the launch has them. -/
def colOut (sT dT : S2x4014080.Idx → EReal) (bP : S4014080.Idx → BitVec 32) (uT : S32x1024.Idx → EReal)
    (w1T : S32x36.Idx → EReal) (b1c : S32x1.Idx → EReal) (w2T : S32x32.Idx → EReal) (b2c : S32x1.Idx → EReal)
    (j : Fin 32) (e : Fin 4014080) : EReal :=
  (∑ k : Fin 32, w2T (ix2 j k) *
      max ((∑ k' : Fin 36, w1T (ix2 k k') * colFeat sT dT bP uT e k') + b1c (ix2 k (0 : Fin 1))) 0)
    + b2c (ix2 j (0 : Fin 1))

/-- The launch's whole result array, 32 rows by 4014080 columns. -/
def launchOut (sT dT : S2x4014080.Idx → EReal) (bP : S4014080.Idx → BitVec 32) (uT : S32x1024.Idx → EReal)
    (w1T : S32x36.Idx → EReal) (b1c : S32x1.Idx → EReal) (w2T : S32x32.Idx → EReal) (b2c : S32x1.Idx → EReal) :
    S32x4014080.Idx → EReal :=
  fun i => colOut sT dT bP uT w1T b1c w2T b2c ⟨(i 0).val, idx2_lt0 i⟩ ⟨(i 1).val, idx2_lt1 i⟩

/-- The array at an index whose coordinates are known. -/
theorem launchOut_of_coords (sT dT : S2x4014080.Idx → EReal) (bP : S4014080.Idx → BitVec 32) (uT : S32x1024.Idx → EReal)
    (w1T : S32x36.Idx → EReal) (b1c : S32x1.Idx → EReal) (w2T : S32x32.Idx → EReal) (b2c : S32x1.Idx → EReal)
    (i : S32x4014080.Idx) (j : Fin 32) (e : Fin 4014080) (h0 : (i 0).val = j.val) (h1 : (i 1).val = e.val) :
    launchOut sT dT bP uT w1T b1c w2T b2c i = colOut sT dT bP uT w1T b1c w2T b2c j e := by
  unfold launchOut
  have e0 : (⟨(i 0).val, idx2_lt0 i⟩ : Fin 32) = j := Fin.ext h0
  have e1 : (⟨(i 1).val, idx2_lt1 i⟩ : Fin 4014080) = e := Fin.ext h1
  rw [e0, e1]

variable (m : (ℓ : Loc nD τ sig) → Buf (Elt Ideal) ℓ)

/-! ## The blocks the body is given at a grid point -/

/-- The block index of every window at every grid point: the three streamed operands and the result move one
    block of 16384 columns per point; the five resident operands stay at block zero. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 1) = t.val
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = t.val :=
  (by decide +kernel : ∀ t : Fin grid0.N, _)

/-- There are 245 grid points. -/
theorem point_lt (t : Fin cfg0.N) : t.val < 245 := t.isLt

/-- The operand blocks at point t, at their literal types. -/
abbrev blkSrc (c : Dev nD) (t : Fin cfg0.N) : Vec Ideal S2x16384 .f32 := iblk m c 0 t
abbrev blkDest (c : Dev nD) (t : Fin cfg0.N) : Vec Ideal S2x16384 .f32 := iblk m c 1 t
abbrev blkIds (c : Dev nD) (t : Fin cfg0.N) : Vec Ideal S16384 .i32 := iblk m c 2 t
abbrev blkU (c : Dev nD) (t : Fin cfg0.N) : Vec Ideal S32x1024 .bf16 := iblk m c 3 t
abbrev blkW1 (c : Dev nD) (t : Fin cfg0.N) : Vec Ideal S32x36 .bf16 := iblk m c 4 t
abbrev blkB1 (c : Dev nD) (t : Fin cfg0.N) : Vec Ideal S32x1 .f32 := iblk m c 5 t
abbrev blkW2 (c : Dev nD) (t : Fin cfg0.N) : Vec Ideal S32x32 .bf16 := iblk m c 6 t
abbrev blkB2 (c : Dev nD) (t : Fin cfg0.N) : Vec Ideal S32x1 .f32 := iblk m c 7 t

/-- The operand arrays as the launch finds them, at their literal types. -/
abbrev arrSrc (c : Dev nD) : S2x4014080.Idx → EReal := V m c main_v3
abbrev arrDest (c : Dev nD) : S2x4014080.Idx → EReal := V m c main_v4
abbrev arrIds (c : Dev nD) : S4014080.Idx → BitVec 32 := V m c main_v2
abbrev arrU (c : Dev nD) : S32x1024.Idx → EReal := V m c main_v6
abbrev arrW1 (c : Dev nD) : S32x36.Idx → EReal := V m c main_v8
abbrev arrB1 (c : Dev nD) : S32x1.Idx → EReal := V m c main_v11
abbrev arrW2 (c : Dev nD) : S32x32.Idx → EReal := V m c main_v10
abbrev arrB2 (c : Dev nD) : S32x1.Idx → EReal := V m c main_v12

/-- Column q of the source block at point t is column 16384·t + q of the source array. -/
theorem blkSrc_apply (c : Dev nD) (t : Fin cfg0.N) (r : Fin 2) (q : Fin 16384) (h : 16384 * t.val + q.val < 4014080) :
    blkSrc m c t (ix2 r q) = arrSrc m c (ix2 r (⟨16384 * t.val + q.val, h⟩ : Fin 4014080)) := by
  obtain ⟨e00, e01, -⟩ := idx_facts t
  show arrSrc m c (((cfg0.win 0).blk t).view.emb (ix2 r q)) = arrSrc m c _
  refine congrArg (arrSrc m c) (funext fun a => Fin.ext ?_)
  match a with
  | ⟨0, _⟩ => show win0_0.index t (0 : Fin 2) * 2 + 1 * r.val = r.val; omega
  | ⟨1, _⟩ => show win0_0.index t (1 : Fin 2) * 16384 + 1 * q.val = 16384 * t.val + q.val; omega

/-- Column q of the destination block at point t is column 16384·t + q of the destination array. -/
theorem blkDest_apply (c : Dev nD) (t : Fin cfg0.N) (r : Fin 2) (q : Fin 16384) (h : 16384 * t.val + q.val < 4014080) :
    blkDest m c t (ix2 r q) = arrDest m c (ix2 r (⟨16384 * t.val + q.val, h⟩ : Fin 4014080)) := by
  obtain ⟨-, -, e10, e11, -⟩ := idx_facts t
  show arrDest m c (((cfg0.win 1).blk t).view.emb (ix2 r q)) = arrDest m c _
  refine congrArg (arrDest m c) (funext fun a => Fin.ext ?_)
  match a with
  | ⟨0, _⟩ => show win0_1.index t (0 : Fin 2) * 2 + 1 * r.val = r.val; omega
  | ⟨1, _⟩ => show win0_1.index t (1 : Fin 2) * 16384 + 1 * q.val = 16384 * t.val + q.val; omega

/-- Entry q of the graph-id block at point t is entry 16384·t + q of the graph-id array. -/
theorem blkIds_apply (c : Dev nD) (t : Fin cfg0.N) (q : Fin 16384) (h : 16384 * t.val + q.val < 4014080) :
    blkIds m c t (ix1 q) = arrIds m c (ix1 (⟨16384 * t.val + q.val, h⟩ : Fin 4014080)) := by
  obtain ⟨-, -, -, -, e2, -⟩ := idx_facts t
  show arrIds m c (((cfg0.win 2).blk t).view.emb (ix1 q)) = arrIds m c _
  refine congrArg (arrIds m c) (funext fun a => Fin.ext ?_)
  match a with
  | ⟨0, _⟩ => show win0_2.index t (0 : Fin 1) * 16384 + 1 * q.val = 16384 * t.val + q.val; omega

/-- The table's block is the whole table at every point. -/
theorem blkU_apply (c : Dev nD) (t : Fin cfg0.N) (d : Fin 32) (g : Fin 1024) :
    blkU m c t (ix2 d g) = arrU m c (ix2 d g) := by
  obtain ⟨-, -, -, -, -, e30, e31, -⟩ := idx_facts t
  show arrU m c (((cfg0.win 3).blk t).view.emb (ix2 d g)) = arrU m c _
  refine congrArg (arrU m c) (funext fun a => Fin.ext ?_)
  match a with
  | ⟨0, _⟩ => show win0_3.index t (0 : Fin 2) * 32 + 1 * d.val = d.val; omega
  | ⟨1, _⟩ => show win0_3.index t (1 : Fin 2) * 1024 + 1 * g.val = g.val; omega

/-- The first layer's weights' block is the whole matrix at every point. -/
theorem blkW1_apply (c : Dev nD) (t : Fin cfg0.N) (k : Fin 32) (k' : Fin 36) :
    blkW1 m c t (ix2 k k') = arrW1 m c (ix2 k k') := by
  obtain ⟨-, -, -, -, -, -, -, e40, e41, -⟩ := idx_facts t
  show arrW1 m c (((cfg0.win 4).blk t).view.emb (ix2 k k')) = arrW1 m c _
  refine congrArg (arrW1 m c) (funext fun a => Fin.ext ?_)
  match a with
  | ⟨0, _⟩ => show win0_4.index t (0 : Fin 2) * 32 + 1 * k.val = k.val; omega
  | ⟨1, _⟩ => show win0_4.index t (1 : Fin 2) * 36 + 1 * k'.val = k'.val; omega

/-- The first bias column's block is the whole column at every point. -/
theorem blkB1_apply (c : Dev nD) (t : Fin cfg0.N) (k : Fin 32) (z : Fin 1) :
    blkB1 m c t (ix2 k z) = arrB1 m c (ix2 k z) := by
  obtain ⟨-, -, -, -, -, -, -, -, -, e50, e51, -⟩ := idx_facts t
  show arrB1 m c (((cfg0.win 5).blk t).view.emb (ix2 k z)) = arrB1 m c _
  refine congrArg (arrB1 m c) (funext fun a => Fin.ext ?_)
  match a with
  | ⟨0, _⟩ => show win0_5.index t (0 : Fin 2) * 32 + 1 * k.val = k.val; omega
  | ⟨1, _⟩ => show win0_5.index t (1 : Fin 2) * 1 + 1 * z.val = z.val; omega

/-- The second layer's weights' block is the whole matrix at every point. -/
theorem blkW2_apply (c : Dev nD) (t : Fin cfg0.N) (j : Fin 32) (k : Fin 32) :
    blkW2 m c t (ix2 j k) = arrW2 m c (ix2 j k) := by
  obtain ⟨-, -, -, -, -, -, -, -, -, -, -, e60, e61, -⟩ := idx_facts t
  show arrW2 m c (((cfg0.win 6).blk t).view.emb (ix2 j k)) = arrW2 m c _
  refine congrArg (arrW2 m c) (funext fun a => Fin.ext ?_)
  match a with
  | ⟨0, _⟩ => show win0_6.index t (0 : Fin 2) * 32 + 1 * j.val = j.val; omega
  | ⟨1, _⟩ => show win0_6.index t (1 : Fin 2) * 32 + 1 * k.val = k.val; omega

/-- The second bias column's block is the whole column at every point. -/
theorem blkB2_apply (c : Dev nD) (t : Fin cfg0.N) (j : Fin 32) (z : Fin 1) :
    blkB2 m c t (ix2 j z) = arrB2 m c (ix2 j z) := by
  obtain ⟨-, -, -, -, -, -, -, -, -, -, -, -, -, e70, e71, -⟩ := idx_facts t
  show arrB2 m c (((cfg0.win 7).blk t).view.emb (ix2 j z)) = arrB2 m c _
  refine congrArg (arrB2 m c) (funext fun a => Fin.ext ?_)
  match a with
  | ⟨0, _⟩ => show win0_7.index t (0 : Fin 2) * 32 + 1 * j.val = j.val; omega
  | ⟨1, _⟩ => show win0_7.index t (1 : Fin 2) * 1 + 1 * z.val = z.val; omega

/-! ## What a grid point writes back -/

/-- The features of the edge in column q of point t's blocks are those of column 16384·t + q of the arrays. -/
theorem blockFeat_eq (c : Dev nD) (t : Fin cfg0.N) (q : Fin 16384) (h : 16384 * t.val + q.val < 4014080) (k' : Fin 36) :
    Cert.EdgeMlp.Body.blockFeat (blkSrc m c t) (blkDest m c t) (blkIds m c t) (blkU m c t) q k'
      = colFeat (arrSrc m c) (arrDest m c) (arrIds m c) (arrU m c) (⟨16384 * t.val + q.val, h⟩ : Fin 4014080) k' := by
  unfold Cert.EdgeMlp.Body.blockFeat colFeat
  by_cases h0 : k'.val < 2
  · rw [dif_pos h0, dif_pos h0]; exact blkSrc_apply m c t _ q h
  · rw [dif_neg h0, dif_neg h0]
    by_cases h1 : k'.val < 4
    · rw [dif_pos h1, dif_pos h1]; exact blkDest_apply m c t _ q h
    · rw [dif_neg h1, dif_neg h1, blkU_apply]
      refine congrArg (arrU m c) (congrArg (ix2 _) (Fin.ext ?_))
      show (blkIds m c t (ix1 q) : BitVec 32).toNat % 1024 = _
      rw [blkIds_apply m c t q h]

/-- WHAT POINT t WRITES BACK is block t of the launch's result function of the operand arrays, provided every
    graph id of the padded array is below 1024. -/
theorem flushed_eq (c : Dev nD) (hb : ∀ e : Fin 4014080, (arrIds m c (ix1 e)).toNat < 1024) (t : Fin cfg0.N) :
    (dats m 0 c).flushed 8 t = ((cfg0.win 8).blk t).view.read (Elt Ideal)
      (launchOut (arrSrc m c) (arrDest m c) (arrIds m c) (arrU m c) (arrW1 m c) (arrB1 m c) (arrW2 m c) (arrB2 m c)) := by
  show (cfg0.win 8).cut (grid0.coords t) ((dats m 0 c).after 8 t) = _
  rw [after0_8]
  unfold outsAt0
  funext y
  obtain ⟨j, q, rfl⟩ : ∃ (j : Fin 32) (q : Fin 16384), y = ix2 j q := ⟨y 0, y 1, eq_ix2 y⟩
  have hq : 16384 * t.val + q.val < 4014080 := by have := point_lt t; have := q.isLt; omega
  have hbt : ∀ q' : Fin 16384, (blkIds m c t (ix1 q') : BitVec 32).toNat < 1024 := fun q' => by
    have hq' : 16384 * t.val + q'.val < 4014080 := by have := point_lt t; have := q'.isLt; omega
    rw [blkIds_apply m c t q' hq']; exact hb _
  obtain ⟨-, -, -, -, -, -, -, -, -, -, -, -, -, -, -, e80, e81⟩ := idx_facts t
  show out0_A_8 (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t)
      (blkSrc m c t) (blkDest m c t) (blkIds m c t) (blkU m c t) (blkW1 m c t) (blkB1 m c t) (blkW2 m c t) (blkB2 m c t) (ix2 j q)
    = launchOut (arrSrc m c) (arrDest m c) (arrIds m c) (arrU m c) (arrW1 m c) (arrB1 m c) (arrW2 m c) (arrB2 m c)
        (((cfg0.win 8).blk t).view.emb (ix2 j q))
  have hidx : launchOut (arrSrc m c) (arrDest m c) (arrIds m c) (arrU m c) (arrW1 m c) (arrB1 m c) (arrW2 m c) (arrB2 m c)
        (((cfg0.win 8).blk t).view.emb (ix2 j q))
      = colOut (arrSrc m c) (arrDest m c) (arrIds m c) (arrU m c) (arrW1 m c) (arrB1 m c) (arrW2 m c) (arrB2 m c) j
          (⟨16384 * t.val + q.val, hq⟩ : Fin 4014080) :=
    launchOut_of_coords (arrSrc m c) (arrDest m c) (arrIds m c) (arrU m c) (arrW1 m c) (arrB1 m c) (arrW2 m c) (arrB2 m c)
      (((cfg0.win 8).blk t).view.emb (ix2 j q)) j (⟨16384 * t.val + q.val, hq⟩ : Fin 4014080)
      (by show win0_8.index t (0 : Fin 2) * 32 + 1 * j.val = j.val; omega)
      (by show win0_8.index t (1 : Fin 2) * 16384 + 1 * q.val = 16384 * t.val + q.val; omega)
  rw [Cert.EdgeMlp.Body.block_entry c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t)
      (blkSrc m c t) (blkDest m c t) (blkIds m c t) (blkU m c t) (blkW1 m c t) (blkB1 m c t) (blkW2 m c t) (blkB2 m c t) hbt j q,
    hidx]
  unfold colOut
  rw [blkB2_apply]
  refine congrArg (fun z : EReal => z + arrB2 m c (ix2 j (0 : Fin 1))) (Finset.sum_congr rfl fun k _ => ?_)
  rw [blkW2_apply, blkB1_apply]
  refine congrArg (fun z : EReal => arrW2 m c (ix2 j k) * max (z + arrB1 m c (ix2 k (0 : Fin 1))) 0)
    (Finset.sum_congr rfl fun k' _ => ?_)
  rw [blkW1_apply, blockFeat_eq m c t q hq k']

/-! ## The launch's whole result array -/

/-- An index of the result array is in point t's block iff each coordinate is in the block's range on its axis. -/
theorem mem_blk (t : Fin cfg0.N) (i : S32x4014080.Idx) :
    i ∈ ((cfg0.win 8).blk t).view.set ↔ ∀ a : Fin 2, win0_8.index t a * S32x16384.size a ≤ (i a).val
      ∧ (i a).val < win0_8.index t a * S32x16384.size a + S32x16384.size a := by
  show i ∈ ((View.whole main_v13).slice (win0_8.rect t)).set ↔ _
  rw [View.set_slice_whole, Rect.mem_set_unit]
  exact Iff.rfl

/-- Every column e of the result array lies in the block of point e / 16384: the 245 blocks tile the array. -/
theorem cover (i : S32x4014080.Idx) :
    ∃ t : Fin cfg0.N, (cfg0.win 8).flush t = true ∧ i ∈ ((cfg0.win 8).blk t).view.set := by
  have hi0 : (i 0).val < 32 := idx2_lt0 i
  have hi1 : (i 1).val < 4014080 := idx2_lt1 i
  have ht : (i 1).val / 16384 < 245 := by omega
  refine ⟨(⟨(i 1).val / 16384, ht⟩ : Fin cfg0.N), flush0_8 _, ?_⟩
  rw [mem_blk]
  obtain ⟨-, -, -, -, -, -, -, -, -, -, -, -, -, -, -, e80, e81⟩ := idx_facts (⟨(i 1).val / 16384, ht⟩ : Fin cfg0.N)
  have e81' : win0_8.index (⟨(i 1).val / 16384, ht⟩ : Fin cfg0.N) (1 : Fin 2) = (i 1).val / 16384 := e81
  intro a
  match a with
  | ⟨0, _⟩ =>
    show win0_8.index (⟨(i 1).val / 16384, ht⟩ : Fin cfg0.N) (0 : Fin 2) * 32 ≤ (i 0).val
      ∧ (i 0).val < win0_8.index (⟨(i 1).val / 16384, ht⟩ : Fin cfg0.N) (0 : Fin 2) * 32 + 32
    omega
  | ⟨1, _⟩ =>
    show win0_8.index (⟨(i 1).val / 16384, ht⟩ : Fin cfg0.N) (1 : Fin 2) * 16384 ≤ (i 1).val
      ∧ (i 1).val < win0_8.index (⟨(i 1).val / 16384, ht⟩ : Fin cfg0.N) (1 : Fin 2) * 16384 + 16384
    omega

/-- THE RESULT ARRAY OF THE LAUNCH after the run is the result function of the operand arrays. -/
theorem final (c : Dev nD) (hb : ∀ e : Fin 4014080, (arrIds m c (ix1 e)).toNat < 1024) :
    (dats m 0 c).arrAt 8 cfg0.N = launchOut (arrSrc m c) (arrDest m c) (arrIds m c) (arrU m c) (arrW1 m c) (arrB1 m c) (arrW2 m c) (arrB2 m c) :=
  (dats m 0 c).arrAt_eq_of_cover 8 (launchOut (arrSrc m c) (arrDest m c) (arrIds m c) (arrU m c) (arrW1 m c) (arrB1 m c) (arrW2 m c) (arrB2 m c)) (fun t _ => flushed_eq m c hb t) cover

/-! ## From the launch's operands back to the arguments -/

/-- Where every graph id is below 1024, so is every entry of the padded id array: the padding is zero. -/
theorem padded_ids_lt (c : Dev nD) (hbA : ∀ i : S4000000.Idx, (aBatch m c i).toNat < 1024) (e : Fin 4014080) :
    (arrIds m c (ix1 e)).toNat < 1024 := by
  rw [show arrIds m c (ix1 e) = _ from batchPad_apply m c e]
  by_cases h : e.val < 4000000
  · rw [dif_pos h]; exact hbA _
  · rw [dif_neg h]; decide

/-- A column of the operands below 4000000 holds the features of that edge of the arguments. -/
theorem colFeat_eq (c : Dev nD) (hbA : ∀ i : S4000000.Idx, (aBatch m c i).toNat < 1024) (e : Fin 4000000) (he : e.val < 4014080)
    (k' : Fin 36) :
    colFeat (arrSrc m c) (arrDest m c) (arrIds m c) (arrU m c) (⟨e.val, he⟩ : Fin 4014080) k'
      = Cert.EdgeMlp.feat (aSrc m c) (aDest m c) (aU m c) (aBatch m c) e k' := by
  unfold colFeat Cert.EdgeMlp.feat
  by_cases h0 : k'.val < 2
  · rw [dif_pos h0, dif_pos h0, show arrSrc m c (ix2 _ _) = _ from srcT_apply m c _ _, dif_pos e.isLt]
  · rw [dif_neg h0, dif_neg h0]
    by_cases h1 : k'.val < 4
    · rw [dif_pos h1, dif_pos h1, show arrDest m c (ix2 _ _) = _ from destT_apply m c _ _, dif_pos e.isLt]
    · rw [dif_neg h1, dif_neg h1, show arrU m c (ix2 _ _) = _ from uT_apply m c _ _]
      refine congrArg (aU m c) (congrArg (fun r => ix2 r _) (Fin.ext ?_))
      show (arrIds m c (ix1 (⟨e.val, he⟩ : Fin 4014080))).toNat % 1024 = (aBatch m c (ix1 e)).toNat % 1024
      rw [show arrIds m c (ix1 (⟨e.val, he⟩ : Fin 4014080)) = _ from batchPad_apply m c _, dif_pos e.isLt]

/-- THE KERNEL PROGRAM'S RESULT: the launch's array transposed back and cut to the first 4000000 rows is the
    specification's array of the arguments. The products commute on the extended reals; nothing else differs. -/
theorem result_eq (c : Dev nD) (hbA : ∀ i : S4000000.Idx, (aBatch m c i).toNat < 1024) :
    (Pipeline.afterTail₀ cfgs (dats m) 0 (V0 m) [hostOps1] c main_v15 : S4000000x32.Idx → EReal)
      = Cert.EdgeMlp.outArr (aSrc m c) (aDest m c) (aU m c) (aBatch m c) (aW1 m c) (aB1 m c) (aW2 m c) (aB2 m c) := by
  unfold Pipeline.afterTail₀
  show StableHlo.after hostOps1 _ (Proc.devRef .tc main_v15) = _
  after_results
  have hw : Pipeline.withArrays (cfgs 0).spec c (V0 m c) (fun w => (dats m 0 c).arrAt w (cfgs 0).N) (Proc.devRef .tc main_v13)
      = launchOut (arrSrc m c) (arrDest m c) (arrIds m c) (arrU m c) (arrW1 m c) (arrB1 m c) (arrW2 m c) (arrB2 m c) :=
    (Pipeline.withArrays_arr spec0 launch0.win.arr_inj c _ _ 8).trans (final m c (padded_ids_lt m c hbA))
  rw [hw]
  funext i
  obtain ⟨e, j, rfl⟩ : ∃ (e : Fin 4000000) (j : Fin 32), i = ix2 e j := ⟨i 0, i 1, eq_ix2 i⟩
  have he : e.val < 4014080 := by have := e.isLt; omega
  rw [extractStridedSlice_apply _ _ slices_S4014080x32_S4000000x32_0_0 (ix2 e j) (ix2 (⟨e.val, he⟩ : Fin 4014080) j)
      (fun a => match a with
        | ⟨0, _⟩ => by show e.val = 0 + e.val; omega
        | ⟨1, _⟩ => by show j.val = 0 + j.val; omega),
    transpose_ix2_apply,
    launchOut_of_coords (arrSrc m c) (arrDest m c) (arrIds m c) (arrU m c) (arrW1 m c) (arrB1 m c) (arrW2 m c) (arrB2 m c) (ix2 j (⟨e.val, he⟩ : Fin 4014080)) j (⟨e.val, he⟩ : Fin 4014080) rfl rfl,
    Cert.EdgeMlp.outArr_ix2]
  unfold colOut Cert.EdgeMlp.out Cert.EdgeMlp.hidden
  rw [show arrB2 m c (ix2 j (0 : Fin 1)) = _ from b2col_apply m c j 0]
  refine congrArg (fun z : EReal => z + aB2 m c (ix1 j)) (Finset.sum_congr rfl fun k _ => ?_)
  rw [show arrW2 m c (ix2 j k) = _ from w2T_apply m c j k, show arrB1 m c (ix2 k (0 : Fin 1)) = _ from b1col_apply m c k 0, mul_comm]
  refine congrArg (fun z : EReal => max (z + aB1 m c (ix1 k)) 0 * aW2 m c (ix2 k j)) (Finset.sum_congr rfl fun k' _ => ?_)
  rw [show arrW1 m c (ix2 k k') = _ from w1T_apply m c k k', mul_comm, colFeat_eq m c hbA e he k']

end Cert.EdgeMlp.KernelValue

end
-- ==== Proof.lean ====
/-
  An edge decoder of a graph network, against its plain reference, over the extended reals.

  For each of 4000000 edges the reference concatenates the edge's two endpoint coordinate pairs with the row of a
  1024-row table that the edge's graph id selects (36 features), applies a dense layer with a positive part, then a
  second dense layer. The kernel computes the same thing column-wise: it pads the edge axis to 245 blocks of 16384
  columns, transposes every operand, selects the table row by a one-hot product — eight chunks of 128 rows, each
  chunk's product added to a running sum — and applies the two layers with the weights on the left.

  The two agree where every graph id lies in 0 … 1023: there the one-hot column has exactly one entry equal to
  one, so the sum over all 1024 rows of (table entry × indicator) is the selected entry (zero times anything is zero
  on the extended reals: no finiteness is used), and the remaining differences are the order of the factors in each
  product, the transposition and the padding, which is cut off again. Outside that range the reference clamps the id
  into the table while the one-hot column is all zero, which is why the range is part of the precondition.

  The modules: Spec (the function both sides compute), PreRange (the id range read out of the precondition),
  RefValue (the reference's last value is the specification), Payload (the kernel body's arithmetic at an entry),
  BodyValue (the body's loop and the block it leaves), HostPrefix (the operand arrays the launch is given),
  KernelValue (blocks to the whole array, and back to the arguments). Here the five claims are put together.
-/
import proofs.«418547_j34376918237201_1_alg».proof.Defs
import proofs.«418547_j34376918237201_1_alg».proof.Proof.Gen.Kernel
import proofs.«418547_j34376918237201_1_alg».proof.Proof.Gen.Kernel.Frame
import proofs.«418547_j34376918237201_1_alg».proof.Proof.Gen.KernelIdeal
import proofs.«418547_j34376918237201_1_alg».proof.Proof.Gen.KernelIdeal.Frame
import proofs.«418547_j34376918237201_1_alg».proof.Proof.Gen.ReferenceIdeal
import proofs.«418547_j34376918237201_1_alg».proof.Proof.Gen.ReferenceIdeal.Run
import proofs.«418547_j34376918237201_1_alg».proof.Proof.Gen.ReferenceIdeal.Read
import proofs.«418547_j34376918237201_1_alg».proof.Proof.Gen.Pre_finite_inputs
import proofs.«418547_j34376918237201_1_alg».proof.Proof.PreRange
import proofs.«418547_j34376918237201_1_alg».proof.Proof.RefValue
import proofs.«418547_j34376918237201_1_alg».proof.Proof.KernelValue
import Idealize.ShloMosaic.Adequacy
import Idealize.ShloMosaic.Init

noncomputable section

namespace Cert.Proof

open Idealize.ShloMosaic Idealize.ShloMosaic.TcCoe Idealize.SL.Sem

/-- The kernel program at the word level runs and keeps its arguments. -/
theorem frame_kernel : Cert.frame_Kernel := fun m ρ _ => Cert.Kernel.Gen.frame m ρ

/-- So does its reading at the ideal values. -/
theorem frame_kernelIdeal : Cert.frame_KernelIdeal := fun m ρ _ => Cert.KernelIdeal.Gen.frame m ρ

/-- The reference runs and keeps its arguments: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing of the kernel was rewritten for the ideal reading. -/
theorem preserves : Cert.preserves_Kernel_KernelIdeal := trivial

section Algebraic

open Cert.KernelIdeal Cert.KernelIdeal.Gen Cert.EdgeMlp.HostPrefix

/-- From memories that agree on the arguments both programs end with the specification's array of the arguments:
    the kernel's by the value of its launch carried through the transposition and the cut, the reference's by its
    run read stage by stage; the graph ids' range comes out of the precondition. -/
theorem algebraic : Cert.algebraic_KernelIdeal_ReferenceIdeal := by
  intro m ρ m' ρ' hpre hagree
  have hbA : ∀ (c : Dev nD) (i : S4000000.Idx), (aBatch m c i).toNat < 1024 :=
    fun c i => Cert.EdgeMlp.PreRange.batch_lt _ _ _ _ _ _ _ _ _ (hpre c) i
  refine ⟨fun c => Cert.EdgeMlp.outArr (aSrc m c) (aDest m c) (aU m c) (aBatch m c) (aW1 m c) (aB1 m c) (aW2 m c) (aB2 m c), ?_, ?_⟩
  · refine (θ_run Cert.KernelIdeal.defs _ _).mono (fun r h c => ?_) (run_main m ρ)
    exact ⟨((h c).2 main_v15 (Pipeline.mem_restRefs_of main_v15 (by decide) (by decide))).trans
        (Cert.EdgeMlp.KernelValue.result_eq m c (hbA c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩
  · refine (θ_run Cert.ReferenceIdeal.defs _ _).mono (fun _ h c => ⟨?_, (h c).2⟩)
      (Cert.ReferenceIdeal.Value.run (F := Ideal) m' ρ')
    obtain ⟨e0, e1, e2, e3, e4, e5, e6, e7, e8⟩ := hagree c
    have hb' : ∀ i, ((m' ((c.tc : Thread Cert.ReferenceIdeal.nD Cert.ReferenceIdeal.τ).loc Cert.ReferenceIdeal.main_arg4)) i).toNat < 1024 := by
      rw [e4]; exact hbA c
    refine (h c).1.trans ?_
    refine (Cert.ReferenceIdeal.Read.val_main_v16_eq _ _ _ _ _ _ _ _).trans ?_
    refine (Cert.EdgeMlp.RefValue.ref_eq_spec _ _ _ _ _ _ _ _ hb').trans ?_
    rw [e0, e1, e3, e4, e5, e6, e7, e8]

end Algebraic

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
